-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x12 : Shape := ⟨2, ![100, 12]⟩
abbrev S12 : Shape := ⟨1, ![12]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x100 : S_.BroadcastsInDim S16x100 (![] : Fin 0 → Fin S16x100.rank)
  reducesTo_S16x100_S_d0_1 : S16x100.ReducesTo [0, 1] S_
  bcast_S_S100 : S_.BroadcastsInDim S100 (![] : Fin 0 → Fin S100.rank)
  reducesTo_S100_S_d0 : S100.ReducesTo [0] S_
  bcast_S_S100x12 : S_.BroadcastsInDim S100x12 (![] : Fin 0 → Fin S100x12.rank)
  reducesTo_S100x12_S_d0_1 : S100x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg9 : FVec F S100x12 .f32) (main_arg10 : FVec F S12 .f32) (main_v33 : IVec S_ 1) : IVec S_ 1 :=
  let main_v34 : FVec F S100x12 .f32 := Host.absf main_arg9
  let main_cst_12 : FVec F S_ .f32 := constant S_ .f32 0x7F800000#32
  let main_v35 : FVec F S100x12 .f32 := broadcastInDim S100x12 ![] bcast_S_S100x12 main_cst_12
  let main_v36 : IVec S100x12 1 := cmpf .olt main_v34 main_v35
  let main_c_13 : IVec S_ 1 := constantI S_ 1 1#1
  let main_v37 : IVec S_ 1 := (fun x v => Host.reduce IntOp.andi x v reducesTo_S100x12_S_d0_1 h_S_) main_v36 main_c_13
  let main_v38 : IVec S_ 1 := andi main_v33 main_v37
  let main_v39 : FVec F S12 .f32 := Host.absf main_arg10
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg6 : FVec F S16 .f32) (main_arg7 : FVec F S16x100 .f32) (main_arg8 : FVec F S100 .f32) (main_arg9 : FVec F S100x12 .f32) (main_arg10 : FVec F S12 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x100 .f32 := Host.absf main_arg7
  let main_cst_8 : FVec F S_ .f32 := constant S_ .f32 0x7F800000#32
  let main_v25 : FVec F S16x100 .f32 := broadcastInDim S16x100 ![] bcast_S_S16x100 main_cst_8
  let main_v26 : IVec S16x100 1 := cmpf .olt main_v24 main_v25
  let main_c_9 : IVec S_ 1 := constantI S_ 1 1#1
  let main_v27 : IVec S_ 1 := (fun x v => Host.reduce IntOp.andi x v reducesTo_S16x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x16 .f32) (main_arg6 : FVec F S16 .f32) (main_arg7 : FVec F S16x100 .f32) (main_arg8 : FVec F S100 .f32) (main_arg9 : FVec F S100x12 .f32) (main_arg10 : FVec F S12 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x12 : Shape := ⟨2, ![100, 12]⟩
abbrev S12 : Shape := ⟨1, ![12]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x1 : Shape := ⟨2, ![100000, 1]⟩
abbrev S512x16 : Shape := ⟨2, ![512, 16]⟩
abbrev S2000x16 : Shape := ⟨2, ![2000, 16]⟩
abbrev S2000x1 : Shape := ⟨2, ![2000, 1]⟩
abbrev S2000x512 : Shape := ⟨2, ![2000, 512]⟩
abbrev S512x2000 : Shape := ⟨2, ![512, 2000]⟩
abbrev S512x12 : Shape := ⟨2, ![512, 12]⟩
abbrev S512x100 : Shape := ⟨2, ![512, 100]⟩
abbrev S1x100 : Shape := ⟨2, ![1, 100]⟩
abbrev S1x12 : Shape := ⟨2, ![1, 12]⟩

abbrev nBuf : Space → Nat
  | .hbm => 100
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x100, .f32⟩
  | .hbm, ⟨8, _⟩ => ⟨S100, .f32⟩
  | .hbm, ⟨9, _⟩ => ⟨S100x12, .f32⟩
  | .hbm, ⟨10, _⟩ => ⟨S12, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x16, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x16, .f32⟩
  | .hbm, ⟨61, _⟩ => ⟨S3300000x1, .f32⟩
  | .hbm, ⟨62, _⟩ => ⟨S3300000x16, .f32⟩
  | .hbm, ⟨63, _⟩ => ⟨S3300000x16, .f32⟩
  | .hbm, ⟨64, _⟩ => ⟨S_, .f32⟩
  | .hbm, ⟨65, _⟩ => ⟨S100000x16, .f32⟩
  | .hbm, ⟨66, _⟩ => ⟨S3300000x1, .i32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S_, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x16, .f32⟩
  | .hbm, ⟨84, _⟩ => ⟨S3300000x1, .f32⟩
  | .hbm, ⟨85, _⟩ => ⟨S3300000x16, .f32⟩
  | .hbm, ⟨86, _⟩ => ⟨S3300000x16, .f32⟩
  | .hbm, ⟨87, _⟩ => ⟨S_, .f32⟩
  | .hbm, ⟨88, _⟩ => ⟨S100000x16, .f32⟩
  | .hbm, ⟨89, _⟩ => ⟨S3300000x1, .i32⟩
  | .hbm, ⟨90, _⟩ => ⟨S100000x16, .f32⟩
  | .hbm, ⟨91, _⟩ => ⟨S1x16, .f32⟩
  | .hbm, ⟨92, _⟩ => ⟨S100000x16, .f32⟩
  | .hbm, ⟨93, _⟩ => ⟨S100000x16, .f32⟩
  | .hbm, ⟨94, _⟩ => ⟨S_, .f32⟩
  | .hbm, ⟨95, _⟩ => ⟨S100000x16, .f32⟩
  | .hbm, ⟨96, _⟩ => ⟨S100000x16, .f32⟩
  | .hbm, ⟨97, _⟩ => ⟨S100000x1, .i32⟩
  | .hbm, ⟨98, _⟩ => ⟨S512x16, .f32⟩
  | .hbm, ⟨99, _⟩ => ⟨S512x12, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x16, .f32⟩
  | .local _ .vmem, ⟨8, _⟩ => ⟨S10000x16, .f32⟩
  | .local _ .vmem, ⟨9, _⟩ => ⟨S10000x16, .f32⟩
  | .local _ .vmem, ⟨10, _⟩ => ⟨S2000x16, .f32⟩
  | .local _ .vmem, ⟨11, _⟩ => ⟨S2000x16, .f32⟩
  | .local _ .vmem, ⟨12, _⟩ => ⟨S2000x1, .i32⟩
  | .local _ .vmem, ⟨13, _⟩ => ⟨S2000x1, .i32⟩
  | .local _ .vmem, ⟨14, _⟩ => ⟨S512x16, .f32⟩
  | .local _ .vmem, ⟨15, _⟩ => ⟨S512x16, .f32⟩
  | .local _ .vmem, ⟨16, _⟩ => ⟨S16x100, .f32⟩
  | .local _ .vmem, ⟨17, _⟩ => ⟨S100, .f32⟩
  | .local _ .vmem, ⟨18, _⟩ => ⟨S100x12, .f32⟩
  | .local _ .vmem, ⟨19, _⟩ => ⟨S12, .f32⟩
  | .local _ .vmem, ⟨20, _⟩ => ⟨S512x12, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x12 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S12 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x12 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  shapeCasts_S100000_S100000x1 : S100000.ShapeCasts S100000x1
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  transposes_S2000x512_p1_0_S512x2000 : S2000x512.Transposes [1, 0] S512x2000
  shapeCasts_S512x16_S512x16 : S512x16.ShapeCasts S512x16
  inb_S16x100_S16x100_0_0 : ∀ a, (![0, 0] : Fin 2 → Nat) a + S16x100.size a ≤ S16x100.size a
  h_S16x100 : 0 < S16x100.numel
  inb_S100_S100_0 : ∀ a, (![0] : Fin 1 → Nat) a + S100.size a ≤ S100.size a
  h_S100 : 0 < S100.numel
  shapeCasts_S100_S1x100 : S100.ShapeCasts S1x100
  broadcasts_S1x100_S512x100 : S1x100.Broadcasts S512x100
  inb_S100x12_S100x12_0_0 : ∀ a, (![0, 0] : Fin 2 → Nat) a + S100x12.size a ≤ S100x12.size a
  h_S100x12 : 0 < S100x12.numel
  inb_S12_S12_0 : ∀ a, (![0] : Fin 1 → Nat) a + S12.size a ≤ S12.size a
  h_S12 : 0 < S12.numel
  shapeCasts_S12_S1x12 : S12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S512x2000_S2000x16_S512x16_1_0_0_1_n_n_wf : DotDims.WF S512x2000 S2000x16 S512x16 [1] [0] [0] [1] [] []
  dot_S512x16_S16x100_S512x100_1_0_0_1_n_n_wf : DotDims.WF S512x16 S16x100 S512x100 [1] [0] [0] [1] [] []
  dot_S512x100_S100x12_S512x12_1_0_0_1_n_n_wf : DotDims.WF S512x100 S100x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x16.size a ≤ S512x16.size a
  hwx2_2 : ∀ i : grid2.Coords, EltTy.bits .f32 = 32 ∨ (Rect.block (s := S512x16) S512x16.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x16.size a ≤ S512x16.size a
  hwx3_0 : ∀ i : grid3.Coords, EltTy.bits .f32 = 32 ∨ (Rect.block (s := S512x16) S512x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x100.size a ≤ S16x100.size a
  hwx3_1 : ∀ i : grid3.Coords, EltTy.bits .f32 = 32 ∨ (Rect.block (s := S16x100) S16x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100.size a ≤ S100.size a
  hwx3_2 : ∀ i : grid3.Coords, EltTy.bits .f32 = 32 ∨ (Rect.block (s := S100) S100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x12.size a ≤ S100x12.size a
  hwx3_3 : ∀ i : grid3.Coords, EltTy.bits .f32 = 32 ∨ (Rect.block (s := S100x12) S100x12.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S12.size a ≤ S12.size a
  hwx3_4 : ∀ i : grid3.Coords, EltTy.bits .f32 = 32 ∨ (Rect.block (s := S12) S12.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x12.size a ≤ S512x12.size a
  hwx3_5 : ∀ i : grid3.Coords, EltTy.bits .f32 = 32 ∨ (Rect.block (s := S512x12) S512x12.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S512x2000_S2000x16_S512x16_1_0_0_1_n_n : DotDims S512x2000 S2000x16 S512x16 where
  lhsContracting := [1]
  rhsContracting := [0]
  lhsNonContracting := [0]
  rhsNonContracting := [1]
  lhsBatch := []
  rhsBatch := []
  wf := dot_S512x2000_S2000x16_S512x16_1_0_0_1_n_n_wf
def dot_S512x16_S16x100_S512x100_1_0_0_1_n_n : DotDims S512x16 S16x100 S512x100 where
  lhsContracting := [1]
  rhsContracting := [0]
  lhsNonContracting := [0]
  rhsNonContracting := [1]
  lhsBatch := []
  rhsBatch := []
  wf := dot_S512x16_S16x100_S512x100_1_0_0_1_n_n_wf
def dot_S512x100_S100x12_S512x12_1_0_0_1_n_n : DotDims S512x100 S100x12 S512x12 where
  lhsContracting := [1]
  rhsContracting := [0]
  lhsNonContracting := [0]
  rhsNonContracting := [1]
  lhsBatch := []
  rhsBatch := []
  wf := dot_S512x100_S100x12_S512x12_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S512x16.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S512x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S16x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S100x12.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S12.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S512x12.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x12 : Shape := ⟨2, ![100, 12]⟩
abbrev S12 : Shape := ⟨1, ![12]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512x100 : Shape := ⟨2, ![512, 100]⟩
abbrev S1x100 : Shape := ⟨2, ![1, 100]⟩
abbrev S512x12 : Shape := ⟨2, ![512, 12]⟩
abbrev S1x12 : Shape := ⟨2, ![1, 12]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x100, .f32⟩
  | .hbm, ⟨8, _⟩ => ⟨S100, .f32⟩
  | .hbm, ⟨9, _⟩ => ⟨S100x12, .f32⟩
  | .hbm, ⟨10, _⟩ => ⟨S12, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x16, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x16, .f32⟩
  | .hbm, ⟨61, _⟩ => ⟨S3300000x1, .f32⟩
  | .hbm, ⟨62, _⟩ => ⟨S3300000x16, .f32⟩
  | .hbm, ⟨63, _⟩ => ⟨S3300000x16, .f32⟩
  | .hbm, ⟨64, _⟩ => ⟨S_, .f32⟩
  | .hbm, ⟨65, _⟩ => ⟨S100000x16, .f32⟩
  | .hbm, ⟨66, _⟩ => ⟨S3300000x1, .i32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S_, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x16, .f32⟩
  | .hbm, ⟨84, _⟩ => ⟨S3300000x1, .f32⟩
  | .hbm, ⟨85, _⟩ => ⟨S3300000x16, .f32⟩
  | .hbm, ⟨86, _⟩ => ⟨S3300000x16, .f32⟩
  | .hbm, ⟨87, _⟩ => ⟨S_, .f32⟩
  | .hbm, ⟨88, _⟩ => ⟨S100000x16, .f32⟩
  | .hbm, ⟨89, _⟩ => ⟨S3300000x1, .i32⟩
  | .hbm, ⟨90, _⟩ => ⟨S100000x16, .f32⟩
  | .hbm, ⟨91, _⟩ => ⟨S1x16, .f32⟩
  | .hbm, ⟨92, _⟩ => ⟨S100000x16, .f32⟩
  | .hbm, ⟨93, _⟩ => ⟨S100000x16, .f32⟩
  | .hbm, ⟨94, _⟩ => ⟨S_, .f32⟩
  | .hbm, ⟨95, _⟩ => ⟨S100000x16, .f32⟩
  | .hbm, ⟨96, _⟩ => ⟨S100000x16, .f32⟩
  | .hbm, ⟨97, _⟩ => ⟨S_, .f32⟩
  | .hbm, ⟨98, _⟩ => ⟨S512x16, .f32⟩
  | .hbm, ⟨99, _⟩ => ⟨S100000x1, .i32⟩
  | .hbm, ⟨100, _⟩ => ⟨S512x16, .f32⟩
  | .hbm, ⟨101, _⟩ => ⟨S_, .f32⟩
  | .hbm, ⟨102, _⟩ => ⟨S512x16, .f32⟩
  | .hbm, ⟨103, _⟩ => ⟨S512x16, .f32⟩
  | .hbm, ⟨104, _⟩ => ⟨S512x100, .f32⟩
  | .hbm, ⟨105, _⟩ => ⟨S1x100, .f32⟩
  | .hbm, ⟨106, _⟩ => ⟨S512x100, .f32⟩
  | .hbm, ⟨107, _⟩ => ⟨S512x100, .f32⟩
  | .hbm, ⟨108, _⟩ => ⟨S_, .f32⟩
  | .hbm, ⟨109, _⟩ => ⟨S512x100, .f32⟩
  | .hbm, ⟨110, _⟩ => ⟨S512x100, .f32⟩
  | .hbm, ⟨111, _⟩ => ⟨S512x12, .f32⟩
  | .hbm, ⟨112, _⟩ => ⟨S1x12, .f32⟩
  | .hbm, ⟨113, _⟩ => ⟨S512x12, .f32⟩
  | .hbm, ⟨114, _⟩ => ⟨S512x12, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call4_cst : Ref sig .tc := ⟨.hbm, 108, rfl⟩
abbrev main_call4_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S100_S1x100_1 : S100.BroadcastsInDim S1x100 (![1] : Fin 1 → Fin S1x100.rank)
  bcast_S1x100_S512x100_0_1 : S1x100.BroadcastsInDim S512x100 (![0, 1] : Fin 2 → Fin S512x100.rank)
  bcast_S_S512x100 : S_.BroadcastsInDim S512x100 (![] : Fin 0 → Fin S512x100.rank)
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  dot_S512x16_S16x100_S512x100_1_0_0_1_n_n_wf : DotDims.WF S512x16 S16x100 S512x100 [1] [0] [0] [1] [] []
  dot_S512x100_S100x12_S512x12_1_0_0_1_n_n_wf : DotDims.WF S512x100 S100x12 S512x12 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def dot_S512x16_S16x100_S512x100_1_0_0_1_n_n : DotDims S512x16 S16x100 S512x100 where
  lhsContracting := [1]
  rhsContracting := [0]
  lhsNonContracting := [0]
  rhsNonContracting := [1]
  lhsBatch := []
  rhsBatch := []
  wf := dot_S512x16_S16x100_S512x100_1_0_0_1_n_n_wf
def dot_S512x100_S100x12_S512x12_1_0_0_1_n_n : DotDims S512x100 S100x12 S512x12 where
  lhsContracting := [1]
  rhsContracting := [0]
  lhsNonContracting := [0]
  rhsNonContracting := [1]
  lhsBatch := []
  rhsBatch := []
  wf := dot_S512x100_S100x12_S512x12_1_0_0_1_n_n_wf

class Facts : Prop extends Facts₀ where

variable [Facts]
-- ==== Proof.Boundaries.lean ====
/-
  The kernel program's host glue, read stretch by stretch. Between its four regions the program runs the same
  StableHLO operations as the reference — the self-loop edges, the degree count, the symmetric normalisation, and for each
  layer the gather of the source rows, the scaling, the scatter-add onto the targets, the bias and the relu — on buffers
  that carry the same numbers in both programs. So the reading is an invariant: at every boundary between a host stretch
  and a region, each buffer a later operation still reads holds the reference's stage of that number, as a function of
  the launch arguments. A stretch maps the invariant forward because its operations are, term for term, the
  reference's; a region leaves every buffer but its own arrays alone.
-/
import proofs.«403746_j59158879535366_1_alg».proof.Proof.Gen.KernelIdeal.Frame
import proofs.«403746_j59158879535366_1_alg».proof.Proof.RefRead

set_option maxRecDepth 16384

noncomputable section

namespace Cert.KernelIdeal.Boundary

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

/-! ## Each stretch, from any contents `V` of the buffers: what it writes, as the reference's stage of what it reads -/

section Stretches

variable (V : Valuation τ sig (Elt F))

/-- The source ends of the edges with the self loops appended. -/
theorem edges_src : after hostOps0 V (Proc.devRef .tc main_v3) = val_main_v3 (F := F) (V (Proc.devRef .tc main_arg1)) := by
  after_results; rfl
/-- The target ends of the edges with the self loops appended. -/
theorem edges_dst : after hostOps0 V (Proc.devRef .tc main_v6) = val_main_v6 (F := F) (V (Proc.devRef .tc main_arg1)) := by
  after_results; rfl
/-- "The degree is positive", node by node. -/
theorem deg_pos : after hostOps0 V (Proc.devRef .tc main_v12) = val_main_v12 (F := F) (V (Proc.devRef .tc main_arg1)) := by
  after_results; rfl
/-- The degree's inverse square root, node by node. -/
theorem deg_rsqrt : after hostOps0 V (Proc.devRef .tc main_v13) = val_main_v13 (F := F) (V (Proc.devRef .tc main_arg1)) := by
  after_results; rfl
/-- The zero the normalisation puts at an isolated node. -/
theorem zero_scalar : after hostOps0 V (Proc.devRef .tc main_cst_2) = val_main_cst_2 (F := F) := by
  after_results; rfl

/-- The normalisation's per-node factor: the inverse square root of the degree where the degree is positive, zero
    elsewhere. -/
theorem node_factor (x1 : (⟨Cert.ReferenceIdeal.S2x3200000, .i32⟩ : BufTy).Contents (Elt F))
    (h12 : V (Proc.devRef .tc main_v12) = val_main_v12 (F := F) x1) (h13 : V (Proc.devRef .tc main_v13) = val_main_v13 (F := F) x1)
    (hz : V (Proc.devRef .tc main_cst_2) = val_main_cst_2 (F := F)) :
    after hostOps0_1 V (Proc.devRef .tc main_v14) = val_main_v14 (F := F) x1 := by
  after_results
  rw [h12, h13, hz]
  rfl

set_option maxHeartbeats 2000000 in
/-- The per-edge weight: the product of the two ends' factors. -/
theorem edge_weight (x1 : (⟨Cert.ReferenceIdeal.S2x3200000, .i32⟩ : BufTy).Contents (Elt F))
    (h3 : V (Proc.devRef .tc main_v3) = val_main_v3 (F := F) x1) (h6 : V (Proc.devRef .tc main_v6) = val_main_v6 (F := F) x1)
    (h14 : V (Proc.devRef .tc main_v14) = val_main_v14 (F := F) x1) :
    after hostOps0_2 V (Proc.devRef .tc main_v29) = val_main_v29 (F := F) x1 := by
  after_results_simp
  rw [h3, h6, h14]
  rfl

set_option maxHeartbeats 2000000 in
/-- A layer's aggregate plus bias, first layer: gather the product's rows at the edges' sources, scale by the edge
    weights, scatter-add onto the targets, add the bias row. -/
theorem layer1_sum (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (h30 : V (Proc.devRef .tc main_v30) = val_main_v30 (F := F) x0 x3)
    (hb : V (Proc.devRef .tc main_arg4) = x4) :
    after hostOps1 V (Proc.devRef .tc main_v46) = val_main_v46 (F := F) x0 x1 x3 x4 := by
  after_results_simp
  rw [h3, h6, h29, h30, hb]
  rfl

/-- The first layer's relu. -/
theorem layer1_relu (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F))
    (h46 : V (Proc.devRef .tc main_v46) = val_main_v46 (F := F) x0 x1 x3 x4) :
    after hostOps1_1 V (Proc.devRef .tc main_v47) = val_main_v47 (F := F) x0 x1 x3 x4 := by
  after_results
  rw [h46]
  rfl

set_option maxHeartbeats 2000000 in
/-- The second layer's aggregate plus bias. -/
theorem layer2_sum (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F))
    (x5 : (⟨Cert.ReferenceIdeal.S16x16, .f32⟩ : BufTy).Contents (Elt F)) (x6 : (⟨Cert.ReferenceIdeal.S16, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (h48 : V (Proc.devRef .tc main_v48) = val_main_v48 (F := F) x0 x1 x3 x4 x5)
    (hb : V (Proc.devRef .tc main_arg6) = x6) :
    after hostOps2 V (Proc.devRef .tc main_v64) = val_main_v64 (F := F) x0 x1 x3 x4 x5 x6 := by
  after_results_simp
  rw [h3, h6, h29, h48, hb]
  rfl

/-- The second layer's relu. -/
theorem layer2_relu (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F))
    (x5 : (⟨Cert.ReferenceIdeal.S16x16, .f32⟩ : BufTy).Contents (Elt F)) (x6 : (⟨Cert.ReferenceIdeal.S16, .f32⟩ : BufTy).Contents (Elt F))
    (h64 : V (Proc.devRef .tc main_v64) = val_main_v64 (F := F) x0 x1 x3 x4 x5 x6) :
    after hostOps2_1 V (Proc.devRef .tc main_v65) = val_main_v65 (F := F) x0 x1 x3 x4 x5 x6 := by
  after_results
  rw [h64]
  rfl

/-- The graph words laid out as a column, one row per node: the kernel's reshape writes what the reference's
    broadcast along a new unit axis writes, the word of node `r` at `(r, 0)`. -/
theorem word_column (x2 : (⟨Cert.ReferenceIdeal.S100000, .i32⟩ : BufTy).Contents (Elt F)) (h2 : V (Proc.devRef .tc main_arg2) = x2) :
    after hostOps2_2 V (Proc.devRef .tc main_v66) = val_main_v67 (F := F) x2 := by
  after_results
  rw [h2]
  funext (i : Cert.ReferenceIdeal.S100000x1.Idx)
  rw [val_main_v67_apply]
  refine shapeCast_apply (s := Cert.ReferenceIdeal.S100000) (t := Cert.ReferenceIdeal.S100000x1) x2 _ i (idx_main_v67 i) ?_
  rewrite [Shape.rowMajor_val_two, Shape.rowMajor_val_one]
  have h1 : (i 1).val < 1 := (i 1).isLt
  show (i 0).val = (i 0).val * 1 + (i 1).val
  omega

end Stretches

/-! ## What each stretch leaves alone -/

/-- The buffers `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps0`. -/
theorem hostOps0_keeps (V : Valuation τ sig (Elt F)) (r : Ref sig .tc) (h : r ∉ hostOps0_W) :
    after hostOps0 V (Proc.devRef .tc r) = V (Proc.devRef .tc r) :=
  StableHlo.after_of_writes_sub hostOps0 V hostOps0_writes h

/-- The buffers `hostOps0_1`'s operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps0_1`. -/
theorem hostOps0_1_keeps (V : Valuation τ sig (Elt F)) (r : Ref sig .tc) (h : r ∉ hostOps0_1_W) :
    after hostOps0_1 V (Proc.devRef .tc r) = V (Proc.devRef .tc r) :=
  StableHlo.after_of_writes_sub hostOps0_1 V hostOps0_1_writes h

/-- The buffers `hostOps0_2`'s operations write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps0_2`. -/
theorem hostOps0_2_keeps (V : Valuation τ sig (Elt F)) (r : Ref sig .tc) (h : r ∉ hostOps0_2_W) :
    after hostOps0_2 V (Proc.devRef .tc r) = V (Proc.devRef .tc r) :=
  StableHlo.after_of_writes_sub hostOps0_2 V hostOps0_2_writes h

/-- The buffers `hostOps1`'s operations write. -/
abbrev hostOps1_W : List (Ref sig .tc) := [main_c_6, main_v31, main_v32, main_c_7, main_v33, main_v34, main_v35, main_v36, main_v37, main_v38, main_v39, main_v40, main_cst_8, main_v41, main_v42, main_v43, main_v44, main_v45, main_v46]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps1`. -/
theorem hostOps1_keeps (V : Valuation τ sig (Elt F)) (r : Ref sig .tc) (h : r ∉ hostOps1_W) :
    after hostOps1 V (Proc.devRef .tc r) = V (Proc.devRef .tc r) :=
  StableHlo.after_of_writes_sub hostOps1 V hostOps1_writes h

/-- The buffers `hostOps1_1`'s operations write. -/
abbrev hostOps1_1_W : List (Ref sig .tc) := [main_call1_cst, main_call1_v0, main_v47]
theorem hostOps1_1_writes : (hostOps1_1 : List (HloOp τ sig (Elt F))).Forall fun op => op.writes ⊆ (hostOps1_1_W.map (Proc.devRef (τ := τ) .tc)).toFinset := by
  simp only [hostOps1_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps1_1`. -/
theorem hostOps1_1_keeps (V : Valuation τ sig (Elt F)) (r : Ref sig .tc) (h : r ∉ hostOps1_1_W) :
    after hostOps1_1 V (Proc.devRef .tc r) = V (Proc.devRef .tc r) :=
  StableHlo.after_of_writes_sub hostOps1_1 V hostOps1_1_writes h

/-- The buffers `hostOps2`'s operations write. -/
abbrev hostOps2_W : List (Ref sig .tc) := [main_c_9, main_v49, main_v50, main_c_10, main_v51, main_v52, main_v53, main_v54, main_v55, main_v56, main_v57, main_v58, main_cst_11, main_v59, main_v60, main_v61, main_v62, main_v63, main_v64]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps2`. -/
theorem hostOps2_keeps (V : Valuation τ sig (Elt F)) (r : Ref sig .tc) (h : r ∉ hostOps2_W) :
    after hostOps2 V (Proc.devRef .tc r) = V (Proc.devRef .tc r) :=
  StableHlo.after_of_writes_sub hostOps2 V hostOps2_writes h

/-- The buffers `hostOps2_1`'s operations write. -/
abbrev hostOps2_1_W : List (Ref sig .tc) := [main_call2_cst, main_call2_v0, main_v65]
theorem hostOps2_1_writes : (hostOps2_1 : List (HloOp τ sig (Elt F))).Forall fun op => op.writes ⊆ (hostOps2_1_W.map (Proc.devRef (τ := τ) .tc)).toFinset := by
  simp only [hostOps2_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps2_1`. -/
theorem hostOps2_1_keeps (V : Valuation τ sig (Elt F)) (r : Ref sig .tc) (h : r ∉ hostOps2_1_W) :
    after hostOps2_1 V (Proc.devRef .tc r) = V (Proc.devRef .tc r) :=
  StableHlo.after_of_writes_sub hostOps2_1 V hostOps2_1_writes h

/-- The buffers `hostOps2_2`'s operations write. -/
abbrev hostOps2_2_W : List (Ref sig .tc) := [main_v66]
theorem hostOps2_2_writes : (hostOps2_2 : List (HloOp τ sig (Elt F))).Forall fun op => op.writes ⊆ (hostOps2_2_W.map (Proc.devRef (τ := τ) .tc)).toFinset := by
  simp only [hostOps2_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- Any other buffer keeps its contents through `hostOps2_2`. -/
theorem hostOps2_2_keeps (V : Valuation τ sig (Elt F)) (r : Ref sig .tc) (h : r ∉ hostOps2_2_W) :
    after hostOps2_2 V (Proc.devRef .tc r) = V (Proc.devRef .tc r) :=
  StableHlo.after_of_writes_sub hostOps2_2 V hostOps2_2_writes h

/-! ## The walk: a buffer from one boundary to the next, when the segment between does not write it -/

section Walk

variable (m : (ℓ : Loc nD τ sig) → Buf (Elt F) ℓ) (ρ : Dev nD → PrngReg) (c : Dev nD) (r : Ref sig .tc)

theorem W1_eq (h : r ∉ hostOps0_W) : W1 m ρ c (Proc.devRef .tc r) = W0 m ρ c (Proc.devRef .tc r) := hostOps0_keeps _ r h
theorem W2_eq (h : r ∉ hostOps0_1_W) : W2 m ρ c (Proc.devRef .tc r) = W1 m ρ c (Proc.devRef .tc r) := hostOps0_1_keeps _ r h
theorem W3_eq (h : r ∉ hostOps0_2_W) : W3 m ρ c (Proc.devRef .tc r) = W2 m ρ c (Proc.devRef .tc r) := hostOps0_2_keeps _ r h
theorem W4_eq (h : ∀ w, Pipeline.arrRef spec0 w ≠ r) : W4 m ρ c (Proc.devRef .tc r) = W3 m ρ c (Proc.devRef .tc r) := W4_of_ne m ρ c r h
theorem W5_eq (h : r ∉ hostOps1_W) : W5 m ρ c (Proc.devRef .tc r) = W4 m ρ c (Proc.devRef .tc r) := hostOps1_keeps _ r h
theorem W6_eq (h : r ∉ hostOps1_1_W) : W6 m ρ c (Proc.devRef .tc r) = W5 m ρ c (Proc.devRef .tc r) := hostOps1_1_keeps _ r h
theorem W7_eq (h : ∀ w, Pipeline.arrRef spec1 w ≠ r) : W7 m ρ c (Proc.devRef .tc r) = W6 m ρ c (Proc.devRef .tc r) := W7_of_ne m ρ c r h
theorem W8_eq (h : r ∉ hostOps2_W) : W8 m ρ c (Proc.devRef .tc r) = W7 m ρ c (Proc.devRef .tc r) := hostOps2_keeps _ r h
theorem W9_eq (h : r ∉ hostOps2_1_W) : W9 m ρ c (Proc.devRef .tc r) = W8 m ρ c (Proc.devRef .tc r) := hostOps2_1_keeps _ r h
theorem W10_eq (h : r ∉ hostOps2_2_W) : W10 m ρ c (Proc.devRef .tc r) = W9 m ρ c (Proc.devRef .tc r) := hostOps2_2_keeps _ r h
theorem W11_eq (h : ∀ w, Pipeline.arrRef spec2 w ≠ r) : W11 m ρ c (Proc.devRef .tc r) = W10 m ρ c (Proc.devRef .tc r) := W11_of_ne m ρ c r h

/-- At launch a buffer holds the launch memory. -/
theorem W0_eq : W0 m ρ c (Proc.devRef .tc r) = m ((c : Thread nD τ).loc r) := rfl

end Walk

end Cert.KernelIdeal.Boundary

end
-- ==== Proof.GraphSpec.lean ====
/-
  What the two programs compute after the message-passing glue they share, written once as functions on arrays over
  the extended reals. Three pieces:

  * `linear X W` — a dense map applied row by row: entry (n, j) is `∑ₖ X[n, k] · W[k, j]`;
  * `pool bv H` — sum-pooling of node rows by graph: entry (g, j) adds `H[r, j]` over the nodes `r` whose graph word
    `bv[r]` is the word of `g`; a node whose word names no graph (negative, or past the last graph) is in no sum;
  * `head P A₁ c₁ A₂ c₂` — the two-layer classifier on the pooled rows: `relu(relu(P)·A₁ + c₁)·A₂ + c₂`, with
    `relu x = max x 0`.

  Nothing here mentions a program: the kernel's regions and the reference's stages are each shown equal to these.
-/
import Idealize.ShloMosaic.PureOps.Ideal
import Idealize.ShloMosaic.Lib.ValueIdx

noncomputable section

open scoped BigOperators

namespace Cert.GraphSpec

open Idealize.ShloMosaic Idealize.ShloMosaic.ValueIdx

/-- `X · W`, entry by entry: `(n, j) ↦ ∑ₖ X[n, k] · W[k, j]`. -/
def linear {N K J : Nat} (X : (⟨2, ![N, K]⟩ : Shape).Idx → EReal) (W : (⟨2, ![K, J]⟩ : Shape).Idx → EReal) :
    (⟨2, ![N, J]⟩ : Shape).Idx → EReal :=
  fun i => ∑ k : Fin K, X (ix2 ⟨(i 0).val, (i 0).isLt⟩ k) * W (ix2 k ⟨(i 1).val, (i 1).isLt⟩)

/-- Sum-pooling by graph word: `(g, j) ↦ ∑ over the nodes r with bv[r] = word g of H[r, j]`. The graph words sit in a
    column, one row per node. -/
def pool {N C G : Nat} (bv : (⟨2, ![N, 1]⟩ : Shape).Idx → BitVec 32) (H : (⟨2, ![N, C]⟩ : Shape).Idx → EReal) :
    (⟨2, ![G, C]⟩ : Shape).Idx → EReal :=
  fun i => ∑ r : Fin N,
    if bv (ix2 r (0 : Fin 1)) = BitVec.ofNat 32 (i 0).val then H (ix2 r ⟨(i 1).val, (i 1).isLt⟩) else 0

/-- The classifier on pooled rows: `relu(relu(P) · A₁ + c₁) · A₂ + c₂`. -/
def head {G D M Q : Nat} (P : (⟨2, ![G, D]⟩ : Shape).Idx → EReal) (A₁ : (⟨2, ![D, M]⟩ : Shape).Idx → EReal)
    (c₁ : (⟨1, ![M]⟩ : Shape).Idx → EReal) (A₂ : (⟨2, ![M, Q]⟩ : Shape).Idx → EReal)
    (c₂ : (⟨1, ![Q]⟩ : Shape).Idx → EReal) : (⟨2, ![G, Q]⟩ : Shape).Idx → EReal :=
  fun i => linear (fun j => max (linear (fun q => max (P q) 0) A₁ j + c₁ (ix1 ⟨(j 1).val, (j 1).isLt⟩)) 0) A₂ i
    + c₂ (ix1 ⟨(i 1).val, (i 1).isLt⟩)

end Cert.GraphSpec

end
-- ==== Proof.LinearValue.lean ====
/-
  The two row-tiled matrix products. Each runs over ten grid points; point `t` multiplies rows
  `10000·t … 10000·t + 9999` of the left array by the whole right array (the cast to bf16 on the way into the matrix unit
  is the identity over the extended reals, and the product lands on a zero accumulator) and writes that row block of the
  result. The ten blocks tile the result, so the array after the region is `linear X W` of the two arrays the region
  found.
-/
import proofs.«403746_j59158879535366_1_alg».proof.Proof.Gen.KernelIdeal.Frame
import proofs.«403746_j59158879535366_1_alg».proof.Proof.GraphSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/-! ## The first product at one entry -/

/-- The two zero offsets of a whole-buffer access, as the constant function. -/
theorem zero_off : (![0, 0] : Fin 2 → Nat) = fun _ => 0 :=
  funext fun a => match a with | ⟨0, _⟩ => rfl | ⟨1, _⟩ => rfl

/-- Left operand, row axis: the row of the result entry. -/
theorem lhs_mm0_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
/-- Left operand, column axis: the summation index. -/
theorem lhs_mm0_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
/-- Right operand, row axis: the summation index. -/
theorem rhs_mm0_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
/-- Right operand, column axis: the column of the result entry. -/
theorem rhs_mm0_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- One entry of a point's product: row `j 0` of the left block against column `j 1` of the right block, summed over
    the 128 shared coordinates (the casts on the way in change nothing over the extended reals; the accumulator is zero). -/
theorem pay0_apply (x0 : Vec Ideal S10000x128 .f32) (x1 : Vec Ideal S128x16 .f32) (j : S10000x16.Idx) :
    k0_pay1 (F := Ideal) x0 x1 j
      = ∑ k : Fin 128, x0 (ix2 ⟨(j 0).val, (j 0).isLt⟩ k) * x1 (ix2 k ⟨(j 1).val, (j 1).isLt⟩) := by
  unfold k0_pay1
  refine (Ideal.matmul_constant_zero_apply dot_S10000x128_S128x16_S10000x16_1_0_0_1_n_n none _ _ j).trans ?_
  rw [← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx j ((ValueIdx.contrEquiv1 dot_S10000x128_S128x16_S10000x16_1_0_0_1_n_n 128 rfl rfl).symm k) = ix2 ⟨(j 0).val, (j 0).isLt⟩ k := funext fun a => Fin.ext (by
    match a with
    | ⟨0, _⟩ => exact lhs_mm0_0 _ _
    | ⟨1, _⟩ => exact (lhs_mm0_1 _ _).trans hk)
  have er : dot_S10000x128_S128x16_S10000x16_1_0_0_1_n_n.rhsIdx j ((ValueIdx.contrEquiv1 dot_S10000x128_S128x16_S10000x16_1_0_0_1_n_n 128 rfl rfl).symm k) = ix2 k ⟨(j 1).val, (j 1).isLt⟩ := funext fun a => Fin.ext (by
    match a with
    | ⟨0, _⟩ => exact (rhs_mm0_0 _ _).trans hk
    | ⟨1, _⟩ => exact rhs_mm0_1 _ _)
  rw [el, er]
  rfl

/-! ## The second product at one entry -/

/-- Left operand, row axis: the row of the result entry. -/
theorem lhs_mm1_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
/-- Left operand, column axis: the summation index. -/
theorem lhs_mm1_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
/-- Right operand, row axis: the summation index. -/
theorem rhs_mm1_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
/-- Right operand, column axis: the column of the result entry. -/
theorem rhs_mm1_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- One entry of a point's product: row `j 0` of the left block against column `j 1` of the right block, summed over
    the 16 shared coordinates (the left block is first recast to the shape it already has, which changes nothing, as do the
    casts on the way in over the extended reals; the accumulator is zero). -/
theorem pay1_apply (x0 : Vec Ideal S10000x16 .f32) (x1 : Vec Ideal S16x16 .f32) (j : S10000x16.Idx) :
    k1_pay1 (F := Ideal) x0 x1 j
      = ∑ k : Fin 16, x0 (ix2 ⟨(j 0).val, (j 0).isLt⟩ k) * x1 (ix2 k ⟨(j 1).val, (j 1).isLt⟩) := by
  unfold k1_pay1
  rw [shapeCast_self x0 shapeCasts_S10000x16_S10000x16]
  refine (Ideal.matmul_constant_zero_apply dot_S10000x16_S16x16_S10000x16_1_0_0_1_n_n none _ _ j).trans ?_
  rw [← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx j ((ValueIdx.contrEquiv1 dot_S10000x16_S16x16_S10000x16_1_0_0_1_n_n 16 rfl rfl).symm k) = ix2 ⟨(j 0).val, (j 0).isLt⟩ k := funext fun a => Fin.ext (by
    match a with
    | ⟨0, _⟩ => exact lhs_mm1_0 _ _
    | ⟨1, _⟩ => exact (lhs_mm1_1 _ _).trans hk)
  have er : dot_S10000x16_S16x16_S10000x16_1_0_0_1_n_n.rhsIdx j ((ValueIdx.contrEquiv1 dot_S10000x16_S16x16_S10000x16_1_0_0_1_n_n 16 rfl rfl).symm k) = ix2 k ⟨(j 1).val, (j 1).isLt⟩ := funext fun a => Fin.ext (by
    match a with
    | ⟨0, _⟩ => exact (rhs_mm1_0 _ _).trans hk
    | ⟨1, _⟩ => exact rhs_mm1_1 _ _)
  rw [el, er]
  rfl

-- The TensorCore's buffer contents when the region is entered: every statement here holds at any such contents.
variable (V : (c : Dev nD) → (b : Ref sig .tc) → Buf (Elt Ideal) ((c : Thread nD τ).loc b))

/-! ## The first product: from the ten row blocks to the array -/

/-- The block index maps at the ten points: point `t` reads row block `t` of the left array and the one block of
    the right array, and writes row block `t` of the result. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks of the result is some point's. -/
theorem blocks0_onto : ∀ q : Fin 10, ∃ t : Fin cfg0.N, win0_2.index t = ![q.val, 0] :=
  (by decide +kernel : ∀ q : Fin 10, ∃ t : Fin grid0.N, win0_2.index t = ![q.val, 0])

/-- An entry of the result array lies in point `t`'s block iff each coordinate lies in the block's range on its axis. -/
theorem mem_block0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- One entry of a block product against the whole arrays: when row `j 0` of the left block is row `i 0` of `X`, column
    `j 1` of the right block is column `i 1` of `W`, the entry is entry `i` of `X · W`. -/
theorem block_entry0 (X : S100000x128.Idx → EReal) (W : S128x16.Idx → EReal)
    (x0 : Vec Ideal S10000x128 .f32) (x1 : Vec Ideal S128x16 .f32) (j : S10000x16.Idx) (i : S100000x16.Idx)
    (h0 : ∀ k : Fin 128, x0 (ix2 ⟨(j 0).val, (j 0).isLt⟩ k) = X (ix2 ⟨(i 0).val, (i 0).isLt⟩ k))
    (h1 : ∀ k : Fin 128, x1 (ix2 k ⟨(j 1).val, (j 1).isLt⟩) = W (ix2 k ⟨(i 1).val, (i 1).isLt⟩)) :
    k0_pay1 (F := Ideal) x0 x1 j = Cert.GraphSpec.linear (N := 100000) (K := 128) (J := 16) X W i := by
  rw [pay0_apply]
  exact Finset.sum_congr rfl fun k _ => by rw [h0 k, h1 k]

/-- What point `t` writes back is block `t` of `X · W`, `X` and `W` the two arrays as the region finds them. -/
theorem flushed0 (c : Dev nD) (t : Fin cfg0.N) :
    (dat0 (F := Ideal) V c).flushed 2 t
      = ((cfg0.win 2).blk t).view.read (Elt Ideal) (Cert.GraphSpec.linear (N := 100000) (K := 128) (J := 16) (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x16) zero_off]
  obtain ⟨e0, e1, e2, e3, e4, e5⟩ := blocks0 t
  funext j
  show k0_pay1 (F := Ideal) (iblk0 V c 0 t) (iblk0 V c 1 t) j
    = Cert.GraphSpec.linear (N := 100000) (K := 128) (J := 16) (V c (Pipeline.arrRef spec0 0)) (V c (Pipeline.arrRef spec0 1)) (((cfg0.win 2).blk t).view.emb j)
  refine block_entry0 (V c (Pipeline.arrRef spec0 0)) (V c (Pipeline.arrRef spec0 1)) (iblk0 V c 0 t) (iblk0 V c 1 t) j (((cfg0.win 2).blk t).view.emb j) (fun k => ?_) (fun k => ?_)
  · -- the left block's row `j 0` is row `10000 · t + j 0` of the left array, the columns as they are
    show V c (Pipeline.arrRef spec0 0) (((cfg0.win 0).blk t).view.emb (ix2 ⟨(j 0).val, (j 0).isLt⟩ k)) = _
    refine congrArg (V c (Pipeline.arrRef spec0 0)) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · -- the right block is the whole right array; the result's column is the block's column
    show V c (Pipeline.arrRef spec0 1) (((cfg0.win 1).blk t).view.emb (ix2 k ⟨(j 1).val, (j 1).isLt⟩)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega

/-- Every entry of the result array is in the block of the point its row falls to, `row / 10000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := blocks0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-! ## The second product: from the ten row blocks to the array -/

/-- The block index maps at the ten points: point `t` reads row block `t` of the left array and the one block of
    the right array, and writes row block `t` of the result. -/
theorem blocks1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks of the result is some point's. -/
theorem blocks1_onto : ∀ q : Fin 10, ∃ t : Fin cfg1.N, win1_2.index t = ![q.val, 0] :=
  (by decide +kernel : ∀ q : Fin 10, ∃ t : Fin grid1.N, win1_2.index t = ![q.val, 0])

/-- An entry of the result array lies in point `t`'s block iff each coordinate lies in the block's range on its axis. -/
theorem mem_block1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v48).slice (win1_2.rect t)).set ↔ _
  rw [View.set_slice_whole, Rect.mem_set_unit]
  exact Iff.rfl

/-- One entry of a block product against the whole arrays: when row `j 0` of the left block is row `i 0` of `X`, column
    `j 1` of the right block is column `i 1` of `W`, the entry is entry `i` of `X · W`. -/
theorem block_entry1 (X : S100000x16.Idx → EReal) (W : S16x16.Idx → EReal)
    (x0 : Vec Ideal S10000x16 .f32) (x1 : Vec Ideal S16x16 .f32) (j : S10000x16.Idx) (i : S100000x16.Idx)
    (h0 : ∀ k : Fin 16, x0 (ix2 ⟨(j 0).val, (j 0).isLt⟩ k) = X (ix2 ⟨(i 0).val, (i 0).isLt⟩ k))
    (h1 : ∀ k : Fin 16, x1 (ix2 k ⟨(j 1).val, (j 1).isLt⟩) = W (ix2 k ⟨(i 1).val, (i 1).isLt⟩)) :
    k1_pay1 (F := Ideal) x0 x1 j = Cert.GraphSpec.linear (N := 100000) (K := 16) (J := 16) X W i := by
  rw [pay1_apply]
  exact Finset.sum_congr rfl fun k _ => by rw [h0 k, h1 k]

/-- What point `t` writes back is block `t` of `X · W`, `X` and `W` the two arrays as the region finds them. -/
theorem flushed1 (c : Dev nD) (t : Fin cfg1.N) :
    (dat1 (F := Ideal) V c).flushed 2 t
      = ((cfg1.win 2).blk t).view.read (Elt Ideal) (Cert.GraphSpec.linear (N := 100000) (K := 16) (J := 16) (V c (Pipeline.arrRef spec1 0)) (V c (Pipeline.arrRef spec1 1))) := by
  show (cfg1.win 2).cut (grid1.coords t) ((dat1 V c).after 2 t) = _
  rw [after1_2]
  unfold out1_2
  rw [View.canon_unit_zero zero_off]
  simp only [View.ld_unit_zero (S := S10000x16) zero_off, View.ld_unit_zero (S := S16x16) zero_off]
  obtain ⟨e0, e1, e2, e3, e4, e5⟩ := blocks1 t
  funext j
  show k1_pay1 (F := Ideal) (iblk1 V c 0 t) (iblk1 V c 1 t) j
    = Cert.GraphSpec.linear (N := 100000) (K := 16) (J := 16) (V c (Pipeline.arrRef spec1 0)) (V c (Pipeline.arrRef spec1 1)) (((cfg1.win 2).blk t).view.emb j)
  refine block_entry1 (V c (Pipeline.arrRef spec1 0)) (V c (Pipeline.arrRef spec1 1)) (iblk1 V c 0 t) (iblk1 V c 1 t) j (((cfg1.win 2).blk t).view.emb j) (fun k => ?_) (fun k => ?_)
  · -- the left block's row `j 0` is row `10000 · t + j 0` of the left array, the columns as they are
    show V c (Pipeline.arrRef spec1 0) (((cfg1.win 0).blk t).view.emb (ix2 ⟨(j 0).val, (j 0).isLt⟩ k)) = _
    refine congrArg (V c (Pipeline.arrRef spec1 0)) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  · -- the right block is the whole right array; the result's column is the block's column
    show V c (Pipeline.arrRef spec1 1) (((cfg1.win 1).blk t).view.emb (ix2 k ⟨(j 1).val, (j 1).isLt⟩)) = _
    refine congrArg (V c (Pipeline.arrRef spec1 1)) (funext fun a => Fin.ext ?_)
    match a with
    | ⟨0, _⟩ => show win1_1.index t (0 : Fin 2) * 16 + 1 * k.val = k.val; omega
    | ⟨1, _⟩ => show win1_1.index t (1 : Fin 2) * 16 + 1 * (j 1).val = win1_2.index t (1 : Fin 2) * 16 + 1 * (j 1).val; omega

/-- Every entry of the result array is in the block of the point its row falls to, `row / 10000`. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := blocks1_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the first product's region its result array is `linear` of the two arrays it reads. -/
theorem region0_array (c : Dev nD) :
    (dat0 (F := Ideal) V c).arrAt 2 cfg0.N
      = Cert.GraphSpec.linear (N := 100000) (K := 128) (J := 16) (V c (Pipeline.arrRef spec0 0)) (V c (Pipeline.arrRef spec0 1)) := by
  exact (dat0 (F := Ideal) V c).arrAt_eq_of_cover 2 _ (fun t _ => flushed0 V c t) (fun i => cover0 i)

/-- After the second product's region its result array is `linear` of the two arrays it reads. -/
theorem region1_array (c : Dev nD) :
    (dat1 (F := Ideal) V c).arrAt 2 cfg1.N
      = Cert.GraphSpec.linear (N := 100000) (K := 16) (J := 16) (V c (Pipeline.arrRef spec1 0)) (V c (Pipeline.arrRef spec1 1)) := by
  exact (dat1 (F := Ideal) V c).arrAt_eq_of_cover 2 _ (fun t _ => flushed1 V c t) (fun i => cover1 i)

end Cert.KernelIdeal.RegionValue

end
-- ==== Proof.PoolValue.lean ====
/-
  Sum-pooling by a one-hot product, accumulated over fifty grid points into one resident block. Point `t` takes nodes
  `2000·t … 2000·t + 1999`: it builds the 0/1 matrix "node r belongs to graph g" by comparing the node's graph word with the
  column index, and adds (that matrix)ᵀ · (the nodes' rows) into the 512 × 16 block, which point 0 first sets to zero. A
  zero factor annihilates and a one is neutral on the extended reals, so what each point adds is the sum of its nodes'
  rows graph by graph, and after the last point the block holds `pool` of the whole column and array.
-/
import proofs.«403746_j59158879535366_1_alg».proof.Proof.Gen.KernelIdeal.Frame
import proofs.«403746_j59158879535366_1_alg».proof.Proof.GraphSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

namespace Pool

/-! ## What each case of the body leaves in the resident block -/

section Pieces
variable {F : FTy → Type} [FloatOps F]

theorem hz : (![0, 0] : Fin 2 → Nat) = fun _ => 0 := funext fun a => by fin_cases a <;> rfl

/-- At a point after the first the body stores once, over the whole block: the update of what the block held, from the
    point's node rows and graph words. -/
theorem out_B (c : Dev nD) (i : grid2.Coords) (a1 : Memref sig .tc .vmem S2000x16 .f32) (h1 : a1.IsWhole)
    (a2 : Memref sig .tc .vmem S2000x1 .i32) (h2 : a2.IsWhole) (a3 : Memref sig .tc .vmem S512x16 .f32) (h3 : a3.IsWhole)
    (hc : ¬cond2_0 i) (x0 : Vec F S2000x16 .f32) (x1 : Vec F S2000x1 .i32) (xo : Vec F S512x16 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero (S := S512x16) hz]
  simp only [View.readAt_eq_ld, h1.read_unread, h2.read_unread, h3.read_unread, View.ld_unit_zero (S := S2000x16) hz,
    View.ld_unit_zero (S := S2000x1) hz, View.ld_unit_zero (S := S512x16) hz]

/-- At the first point the body stores twice, each time over the whole block: the zeros, then the update of the zeros it
    reads back. The later store is what stays. -/
theorem out_A (c : Dev nD) (i : grid2.Coords) (a1 : Memref sig .tc .vmem S2000x16 .f32) (h1 : a1.IsWhole)
    (a2 : Memref sig .tc .vmem S2000x1 .i32) (h2 : a2.IsWhole) (a3 : Memref sig .tc .vmem S512x16 .f32) (h3 : a3.IsWhole)
    (hc : cond2_0 i) (x0 : Vec F S2000x16 .f32) (x1 : Vec F S2000x1 .i32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S512x16) hz, View.readCov_unit_zero (S := S512x16) _ hz]
  simp only [View.readAt_eq_ld, h1.read_unread, h2.read_unread, View.ld_unit_zero (S := S2000x16) hz,
    View.ld_unit_zero (S := S2000x1) hz]
end Pieces

/-! ## What a point stores, entry by entry -/

section Payload

/- The product's operand positions, axis by axis: entry (g, j) at contracted position k reads the left operand at (g, k)
   and the right at (k, j). -/
theorem lhs_pool_0 (i : S512x16.Idx) (q : dot_S512x2000_S2000x16_S512x16_1_0_0_1_n_n.contr.Idx) :
    (dot_S512x2000_S2000x16_S512x16_1_0_0_1_n_n.lhsIdx i q 0).val = (i 0).val := by
  unfold DotDims.lhsIdx
  rw [dif_neg (show ¬(0 : Fin S512x2000.rank) ∈ dot_S512x2000_S2000x16_S512x16_1_0_0_1_n_n.lhsBatch by decide), dif_pos (show (0 : Fin S512x2000.rank) ∈ dot_S512x2000_S2000x16_S512x16_1_0_0_1_n_n.lhsNonContracting by decide)]
  rfl
theorem lhs_pool_1 (i : S512x16.Idx) (q : dot_S512x2000_S2000x16_S512x16_1_0_0_1_n_n.contr.Idx) :
    (dot_S512x2000_S2000x16_S512x16_1_0_0_1_n_n.lhsIdx i q 1).val = (q ⟨0, by decide⟩).val :=
  dot_S512x2000_S2000x16_S512x16_1_0_0_1_n_n.lhsIdx_val_of_single rfl i q
theorem rhs_pool_0 (i : S512x16.Idx) (q : dot_S512x2000_S2000x16_S512x16_1_0_0_1_n_n.contr.Idx) :
    (dot_S512x2000_S2000x16_S512x16_1_0_0_1_n_n.rhsIdx i q 0).val = (q ⟨0, by decide⟩).val :=
  dot_S512x2000_S2000x16_S512x16_1_0_0_1_n_n.rhsIdx_val_of_single rfl i q
theorem rhs_pool_1 (i : S512x16.Idx) (q : dot_S512x2000_S2000x16_S512x16_1_0_0_1_n_n.contr.Idx) :
    (dot_S512x2000_S2000x16_S512x16_1_0_0_1_n_n.rhsIdx i q 1).val = (i 1).val := by
  unfold DotDims.rhsIdx
  rw [dif_neg (show ¬(1 : Fin S2000x16.rank) ∈ dot_S512x2000_S2000x16_S512x16_1_0_0_1_n_n.rhsBatch by decide), dif_pos (show (1 : Fin S2000x16.rank) ∈ dot_S512x2000_S2000x16_S512x16_1_0_0_1_n_n.rhsNonContracting by decide)]
  rfl

/-- The product into the zero block, entry (g, j): the sum over the 2000 contracted positions. -/
theorem matmul_pool_apply (A : FVec Ideal S512x2000 .bf16) (B : FVec Ideal S2000x16 .bf16) (g : Fin 512) (j : Fin 16) :
    matmul dot_S512x2000_S2000x16_S512x16_1_0_0_1_n_n none A B (constant (F := Ideal) S512x16 .f32 0x00000000#32) (ix2 g j)
      = ∑ k : Fin 2000, A (ix2 g k) * B (ix2 k j) := by
  refine (Ideal.matmul_constant_zero_apply dot_S512x2000_S2000x16_S512x16_1_0_0_1_n_n none A B (ix2 g j)).trans ?_
  rw [← Equiv.sum_comp (ValueIdx.contrEquiv1 dot_S512x2000_S2000x16_S512x16_1_0_0_1_n_n 2000 rfl rfl).symm]
  refine Finset.sum_congr rfl fun k _ => ?_
  have hk := ValueIdx.contrEquiv1_symm_val dot_S512x2000_S2000x16_S512x16_1_0_0_1_n_n 2000 rfl rfl k
  have el : dot_S512x2000_S2000x16_S512x16_1_0_0_1_n_n.lhsIdx (ix2 g j) ((ValueIdx.contrEquiv1 dot_S512x2000_S2000x16_S512x16_1_0_0_1_n_n 2000 rfl rfl).symm k) = ix2 g k := funext fun a => Fin.ext (by
    match a with
    | ⟨0, _⟩ => exact lhs_pool_0 _ _
    | ⟨1, _⟩ => exact (lhs_pool_1 _ _).trans hk)
  have er : dot_S512x2000_S2000x16_S512x16_1_0_0_1_n_n.rhsIdx (ix2 g j) ((ValueIdx.contrEquiv1 dot_S512x2000_S2000x16_S512x16_1_0_0_1_n_n 2000 rfl rfl).symm k) = ix2 k j := funext fun a => Fin.ext (by
    match a with
    | ⟨0, _⟩ => exact (rhs_pool_0 _ _).trans hk
    | ⟨1, _⟩ => exact rhs_pool_1 _ _)
  rw [el, er]

/-- A compare bit widened and read as a signed integer is 1 where the words agree, 0 where they differ. -/
theorem onehot_scalar (a b : BitVec 32) :
    FloatOps.sitofp (F := Ideal) .f32 ((IntOp.cmpi .eq a b).setWidth 32) = if a = b then (1 : EReal) else 0 := by
  by_cases h : a = b
  · have e : IntOp.cmpi .eq a b = 1#1 := by
      show BitVec.ofBool (a == b) = 1#1
      rw [beq_iff_eq.mpr h]; rfl
    rw [if_pos h, e]
    show ((((1#1 : BitVec 1).setWidth 32).toInt : ℝ) : EReal) = 1
    rw [show ((1#1 : BitVec 1).setWidth 32).toInt = 1 from by decide]
    simp
  · have e : IntOp.cmpi .eq a b = 0#1 := by
      show BitVec.ofBool (a == b) = 0#1
      rw [beq_eq_false_iff_ne.mpr h]; rfl
    rw [if_neg h, e]
    show ((((0#1 : BitVec 1).setWidth 32).toInt : ℝ) : EReal) = 0
    rw [show ((0#1 : BitVec 1).setWidth 32).toInt = 0 from by decide]
    simp

/-- The membership matrix, transposed, at (g, k): 1 where node k's word is the word of g, else 0. -/
theorem onehotT_apply (w : IVec S2000x1 32) (hi : S2000x512.Iotas .tc 32 [1]) (hb : S2000x1.Broadcasts S2000x512)
    (h1 : 1 < 32) (hbits : FTy.bits .bf16 < FTy.bits .f32) (ht : S2000x512.Transposes [1, 0] S512x2000)
    (g : Fin 512) (k : Fin 2000) :
    transpose S512x2000 [1, 0]
        (truncf .bf16 (sitofp (F := Ideal) .f32 (extui 32 (cmpi .eq (broadcastTo S2000x512 w hb) (iota .tc S2000x512 32 [1] hi)) h1)) hbits)
        ht (ix2 g k)
      = if w (ix2 k (0 : Fin 1)) = BitVec.ofNat 32 g.val then (1 : EReal) else 0 := by
  refine (transpose_apply [1, 0] _ ht (ix2 g k) (ix2 k g) (fun b => by
    match b with
    | ⟨0, _⟩ => rfl
    | ⟨1, _⟩ => rfl)).trans ?_
  show FloatOps.sitofp (F := Ideal) .f32 ((IntOp.cmpi .eq (broadcastTo S2000x512 w hb (ix2 k g)) (iota .tc S2000x512 32 [1] hi (ix2 k g))).setWidth 32) = _
  rw [broadcastTo_apply w hb (ix2 k g) (ix2 k (0 : Fin 1)) (fun a => by
    match a with
    | ⟨0, _⟩ => show k.val = if (2000 : Nat) = 1 then 0 else k.val; rw [if_neg (by decide)]
    | ⟨1, _⟩ => show (0 : Nat) = if (1 : Nat) = 1 then 0 else _; rw [if_pos rfl]),
    iota_single_apply .tc S2000x512 32 1 hi (ix2 k g)]
  exact onehot_scalar _ _

/-- What a point stores, entry (g, j): what the block held plus the sum over the point's 2000 nodes of the rows whose
    word is the word of g. -/
theorem pay2_apply (x0 : Vec Ideal S2000x16 .f32) (x1 : Vec Ideal S2000x1 .i32) (xo : Vec Ideal S512x16 .f32) (g : Fin 512) (j : Fin 16) :
    k2_pay2 (F := Ideal) x0 x1 xo (ix2 g j)
      = xo (ix2 g j) + ∑ k : Fin 2000, (if x1 (ix2 k (0 : Fin 1)) = BitVec.ofNat 32 g.val then x0 (ix2 k j) else 0) := by
  unfold k2_pay2
  rw [shapeCast_self, shapeCast_self, shapeCast_self]
  show xo (ix2 g j) + matmul dot_S512x2000_S2000x16_S512x16_1_0_0_1_n_n none _ _ (constant (F := Ideal) S512x16 .f32 0x00000000#32) (ix2 g j) = _
  refine congrArg (xo (ix2 g j) + ·) ?_
  refine (matmul_pool_apply _ _ g j).trans ?_
  refine Finset.sum_congr rfl fun k _ => ?_
  rw [onehotT_apply]
  show (if x1 (ix2 k (0 : Fin 1)) = BitVec.ofNat 32 g.val then (1 : EReal) else 0) * x0 (ix2 k j) = _
  by_cases h : x1 (ix2 k (0 : Fin 1)) = BitVec.ofNat 32 g.val
  · rw [if_pos h, if_pos h, one_mul]
  · rw [if_neg h, if_neg h, zero_mul]

/-- The reset block is zero everywhere. -/
theorem pay1_apply (i : S512x16.Idx) : k2_pay1 (F := Ideal) i = 0 := by
  show Ideal.ofBits .f32 0x00000000#32 = 0
  exact Ideal.ofBits_zero_f32

end Payload

/-! ## Sums over a stretch of positions -/

section Sums
variable {M : Type*} [AddCommMonoid M]

/-- The sum over the positions below `a + b` is the sum over those below `a` plus the sum over the `b` positions from
    `a` on, the latter indexed from zero. -/
theorem sum_lt_add (N a b : ℕ) (h : a + b ≤ N) (f : Fin N → M) :
    (∑ r : Fin N, if r.val < a + b then f r else 0)
      = (∑ r : Fin N, if r.val < a then f r else 0) + ∑ k : Fin b, f ⟨a + k.val, by have := k.isLt; omega⟩ := by
  have hw : (∑ k : Fin b, f ⟨a + k.val, by have := k.isLt; omega⟩)
      = ∑ r : Fin N, if a ≤ r.val ∧ r.val < a + b then f r else 0 := by
    rw [← Finset.sum_filter]
    refine Finset.sum_bij (fun (k : Fin b) _ => (⟨a + k.val, by have := k.isLt; omega⟩ : Fin N)) ?_ ?_ ?_ ?_
    · intro k _
      have := k.isLt
      rw [Finset.mem_filter]
      exact ⟨Finset.mem_univ _, by show a ≤ a + k.val ∧ a + k.val < a + b; omega⟩
    · intro k1 _ k2 _ e
      have e' : a + k1.val = a + k2.val := congrArg Fin.val e
      exact Fin.ext (by omega)
    · intro r hr
      rw [Finset.mem_filter] at hr
      have h1 := hr.2.1
      have h2 := hr.2.2
      exact ⟨⟨r.val - a, by omega⟩, Finset.mem_univ _, Fin.ext (by show a + (r.val - a) = r.val; omega)⟩
    · intro k _; rfl
  rw [hw, ← Finset.sum_add_distrib]
  refine Finset.sum_congr rfl fun r _ => ?_
  by_cases h1 : r.val < a
  · rw [if_pos h1, if_pos (by omega), if_neg (by omega), add_zero]
  · by_cases h2 : r.val < a + b
    · rw [if_neg h1, if_pos h2, if_pos ⟨by omega, h2⟩, zero_add]
    · rw [if_neg h1, if_neg h2, if_neg (by omega), add_zero]

end Sums

/-! ## The blocks and the accumulation -/

section Region
variable (V : (c : Dev nD) → (b : Ref sig .tc) → Buf (Elt Ideal) ((c : Thread nD τ).loc b))

/-- The node rows and the graph-word column as the region finds them, and point `t`'s block of each. -/
abbrev rowsArr (c : Dev nD) : Vec Ideal S100000x16 .f32 := V c (Pipeline.arrRef spec2 0)
abbrev wordsArr (c : Dev nD) : Vec Ideal S100000x1 .i32 := V c (Pipeline.arrRef spec2 1)
abbrev rowsBlk (c : Dev nD) (t : Fin cfg2.N) : Vec Ideal S2000x16 .f32 := iblk2 V c 0 t
abbrev wordsBlk (c : Dev nD) (t : Fin cfg2.N) : Vec Ideal S2000x1 .i32 := iblk2 V c 1 t

/-- The index maps over the grid: point `t` takes row block `t` of the nodes and of the words, and always block (0, 0)
    of the result. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Row `k` of point `t`'s block of node rows is row `2000·t + k` of the array. -/
theorem rowsBlk_apply (c : Dev nD) (t : Fin cfg2.N) (k : Fin 2000) (j : Fin 16) (hk : 2000 * t.val + k.val < 100000) :
    rowsBlk V c t (ix2 k j) = rowsArr V c (ix2 ⟨2000 * t.val + k.val, hk⟩ j) := by
  obtain ⟨e0, e1, -⟩ := idx_facts t
  show V c (Pipeline.arrRef spec2 0) (((cfg2.win 0).blk t).view.emb (ix2 k j)) = V c (Pipeline.arrRef spec2 0) (ix2 ⟨2000 * t.val + k.val, hk⟩ j)
  refine congrArg _ (funext fun a => Fin.ext ?_)
  match a with
  | ⟨0, _⟩ => show win2_0.index t (0 : Fin 2) * 2000 + 1 * k.val = 2000 * t.val + k.val; rw [e0]; omega
  | ⟨1, _⟩ => show win2_0.index t (1 : Fin 2) * 16 + 1 * j.val = j.val; rw [e1]; omega

/-- Row `k` of point `t`'s block of graph words is row `2000·t + k` of the column. -/
theorem wordsBlk_apply (c : Dev nD) (t : Fin cfg2.N) (k : Fin 2000) (hk : 2000 * t.val + k.val < 100000) :
    wordsBlk V c t (ix2 k (0 : Fin 1)) = wordsArr V c (ix2 ⟨2000 * t.val + k.val, hk⟩ (0 : Fin 1)) := by
  obtain ⟨-, -, e2, e3, -⟩ := idx_facts t
  show V c (Pipeline.arrRef spec2 1) (((cfg2.win 1).blk t).view.emb (ix2 k (0 : Fin 1))) = V c (Pipeline.arrRef spec2 1) (ix2 ⟨2000 * t.val + k.val, hk⟩ (0 : Fin 1))
  refine congrArg _ (funext fun a => Fin.ext ?_)
  match a with
  | ⟨0, _⟩ => show win2_1.index t (0 : Fin 2) * 2000 + 1 * k.val = 2000 * t.val + k.val; rw [e2]; omega
  | ⟨1, _⟩ => show win2_1.index t (1 : Fin 2) * 1 + 1 * 0 = 0; rw [e3]

/-- What node `r` contributes to entry (g, j) of the pooled array: its row's entry `j` if its word is the word of `g`. -/
abbrev term (c : Dev nD) (g : Fin 512) (j : Fin 16) (r : Fin 100000) : EReal :=
  if wordsArr V c (ix2 r (0 : Fin 1)) = BitVec.ofNat 32 g.val then rowsArr V c (ix2 r j) else 0

/-- The sum of the contributions of the nodes below `2000·n`: what the first `n` points have added. -/
abbrev partialSum (c : Dev nD) (g : Fin 512) (j : Fin 16) (n : ℕ) : EReal :=
  ∑ r : Fin 100000, if r.val < 2000 * n then term V c g j r else 0

/-- One point's step: adding point `t`'s block sum to the sum over the nodes below `2000·t` gives the sum over the
    nodes below `2000·(t+1)`. -/
theorem step (c : Dev nD) (g : Fin 512) (j : Fin 16) (t : Fin cfg2.N) (prev : EReal)
    (hprev : prev = partialSum V c g j t.val) :
    prev + ∑ k : Fin 2000, (if wordsBlk V c t (ix2 k (0 : Fin 1)) = BitVec.ofNat 32 g.val then rowsBlk V c t (ix2 k j) else 0)
      = partialSum V c g j (t.val + 1) := by
  have hN : t.val < 50 := lt_of_lt_of_eq t.isLt (show cfg2.N = 50 from N_2)
  show _ = ∑ r : Fin 100000, if r.val < 2000 * (t.val + 1) then term V c g j r else 0
  rw [show 2000 * (t.val + 1) = 2000 * t.val + 2000 from by omega,
    sum_lt_add 100000 (2000 * t.val) 2000 (by omega) (term V c g j), hprev]
  refine congrArg (partialSum V c g j t.val + ·) (Finset.sum_congr rfl fun k _ => ?_)
  have hk : 2000 * t.val + k.val < 100000 := by have := k.isLt; omega
  rw [rowsBlk_apply V c t k j hk, wordsBlk_apply V c t k hk]

/-- THE INVARIANT: after point `n` the resident block holds, at (g, j), the contributions of the nodes below
    `2000·(n+1)`. -/
theorem outsAt_eq (c : Dev nD) (g : Fin 512) (j : Fin 16) : ∀ (n : ℕ) (hn : n < cfg2.N),
    outsAt2 V c n hn (ix2 g j) = partialSum V c g j (n + 1)
  | 0, hn => by
    refine (congrFun (outsAt2_A V c ⟨0, hn⟩ rfl) (ix2 g j)).trans ?_
    refine (congrFun (out_A (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) ((hcond2_0 ⟨0, hn⟩).mpr rfl) (rowsBlk V c ⟨0, hn⟩) (wordsBlk V c ⟨0, hn⟩)) (ix2 g j)).trans ?_
    refine (pay2_apply (rowsBlk V c ⟨0, hn⟩) (wordsBlk V c ⟨0, hn⟩) (k2_pay1 (F := Ideal)) g j).trans ?_
    refine step V c g j ⟨0, hn⟩ _ ?_
    rw [pay1_apply]
    exact (Finset.sum_eq_zero fun r _ => if_neg (by show ¬r.val < 2000 * 0; omega)).symm
  | n + 1, hn => by
    have hN : cfg2.N = 50 := N_2
    have hB : ¬(⟨n + 1, hn⟩ : Fin cfg2.N).val % 50 = 0 := by dsimp only; omega
    refine (congrFun (outsAt2_B V c ⟨n + 1, hn⟩ hB) (ix2 g j)).trans ?_
    refine (congrFun (out_B (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (fun h => hB ((hcond2_0 ⟨n + 1, hn⟩).mp h)) (rowsBlk V c ⟨n + 1, hn⟩) (wordsBlk V c ⟨n + 1, hn⟩)
      (outsAt2 V c n (Nat.lt_of_succ_lt hn))) (ix2 g j)).trans ?_
    refine (pay2_apply (rowsBlk V c ⟨n + 1, hn⟩) (wordsBlk V c ⟨n + 1, hn⟩) (outsAt2 V c n (Nat.lt_of_succ_lt hn)) g j).trans ?_
    exact step V c g j ⟨n + 1, hn⟩ _ (outsAt_eq c g j n (Nat.lt_of_succ_lt hn))

end Region

/-! ## From the last point's block to the array -/

section Final
variable (V : (c : Dev nD) → (b : Ref sig .tc) → Buf (Elt Ideal) ((c : Thread nD τ).loc b))

/-- The pooled array: `pool` of the graph-word column and the node rows as the region finds them. -/
abbrev pooled (c : Dev nD) : Vec Ideal S512x16 .f32 :=
  Cert.GraphSpec.pool (N := 100000) (C := 16) (G := 512) (wordsArr V c) (rowsArr V c)

/-- After all fifty points nothing is left out: the sum over the nodes below 100000 is the whole pooling sum. -/
theorem partialSum_all (c : Dev nD) (g : Fin 512) (j : Fin 16) : partialSum V c g j 50 = pooled V c (ix2 g j) := by
  show (∑ r : Fin 100000, if r.val < 2000 * 50 then term V c g j r else 0)
    = ∑ r : Fin 100000, if wordsArr V c (ix2 r (0 : Fin 1)) = BitVec.ofNat 32 g.val then rowsArr V c (ix2 r j) else 0
  refine Finset.sum_congr rfl fun r _ => ?_
  rw [if_pos (by have := r.isLt; omega)]

/-- What the last point leaves is the pooled array: the resident block has the array's own extent, and after point 49
    every node has been counted. -/
theorem block_eq (c : Dev nD) (t : Fin cfg2.N) (h49 : t.val = 49) : outsAt2 V c t.val t.isLt = pooled V c := by
  funext y
  have h0 : (y 0).val < 512 := (y 0).isLt
  have h1 : (y 1).val < 16 := (y 1).isLt
  have hy : y = ix2 (⟨(y 0).val, h0⟩ : Fin 512) (⟨(y 1).val, h1⟩ : Fin 16) := funext fun a => by
    match a with
    | ⟨0, _⟩ => rfl
    | ⟨1, _⟩ => rfl
  rw [hy]
  refine (outsAt_eq V c ⟨(y 0).val, h0⟩ ⟨(y 1).val, h1⟩ t.val t.isLt).trans ?_
  rw [show t.val + 1 = 50 from by omega]
  exact partialSum_all V c ⟨(y 0).val, h0⟩ ⟨(y 1).val, h1⟩

/-- The result window's block is the whole array: a block of the array's own extent at block index (0, 0), read through
    zero offsets, reads any contents of the array entry for entry. -/
theorem whole_block (t : Fin cfg2.N) (G : Vec Ideal S512x16 .f32) :
    (cfg2.win 2).cut (grid2.coords t) G = ((cfg2.win 2).blk t).view.read (Elt Ideal) G := by
  obtain ⟨-, -, -, -, e4, e5⟩ := idx_facts t
  funext y
  show G ((cfg2.win 2).xinj (grid2.coords t) y) = G (((cfg2.win 2).blk t).view.emb y)
  refine congrArg G (funext fun a => Fin.ext ?_)
  match a with
  | ⟨0, _⟩ => show (y 0).val = win2_2.index t (0 : Fin 2) * 512 + 1 * (y 0).val; rw [e4]; omega
  | ⟨1, _⟩ => show (y 1).val = win2_2.index t (1 : Fin 2) * 16 + 1 * (y 1).val; rw [e5]; omega

/-- The one write-back, at the last point, writes the pooled array's block. -/
theorem flushed_eq (c : Dev nD) (t : Fin cfg2.N) (hf : (cfg2.win 2).flush t = true) :
    (dat2 (F := Ideal) V c).flushed 2 t = ((cfg2.win 2).blk t).view.read (Elt Ideal) (pooled V c) := by
  have hN : cfg2.N = 50 := N_2
  have h49 : t.val = 49 := by have := (flush2_2 t).mp hf; have := t.isLt; omega
  show (cfg2.win 2).cut (grid2.coords t) ((dat2 V c).after 2 t) = _
  rw [after2_2, block_eq V c t h49]
  exact whole_block t (pooled V c)

/-- An index of the result array is in point `t`'s block iff each coordinate is in the block's range on its axis. -/
theorem mem_blk (t : Fin cfg2.N) (i : S512x16.Idx) :
    i ∈ ((cfg2.win 2).blk t).view.set ↔ ∀ a : Fin 2, win2_2.index t a * S512x16.size a ≤ (i a).val ∧ (i a).val < win2_2.index t a * S512x16.size a + S512x16.size a := by
  show i ∈ ((View.whole main_v67).slice (win2_2.rect t)).set ↔ _
  rw [View.set_slice_whole, Rect.mem_set_unit]
  exact Iff.rfl

/-- The last point's block covers the whole result array. -/
theorem cover (i : S512x16.Idx) : ∃ t : Fin cfg2.N, (cfg2.win 2).flush t = true ∧ i ∈ ((cfg2.win 2).blk t).view.set := by
  have hN : (49 : ℕ) < cfg2.N := lt_of_lt_of_eq (by decide) (show cfg2.N = 50 from N_2).symm
  refine ⟨⟨49, hN⟩, (flush2_2 ⟨49, hN⟩).mpr rfl, ?_⟩
  rw [mem_blk]
  obtain ⟨-, -, -, -, e4, e5⟩ := idx_facts ⟨49, hN⟩
  have h0 : (i 0).val < 512 := (i 0).isLt
  have h1 : (i 1).val < 16 := (i 1).isLt
  intro a
  match a with
  | ⟨0, _⟩ => show win2_2.index ⟨49, hN⟩ (0 : Fin 2) * 512 ≤ (i 0).val ∧ (i 0).val < win2_2.index ⟨49, hN⟩ (0 : Fin 2) * 512 + 512; rw [e4]; omega
  | ⟨1, _⟩ => show win2_2.index ⟨49, hN⟩ (1 : Fin 2) * 16 ≤ (i 1).val ∧ (i 1).val < win2_2.index ⟨49, hN⟩ (1 : Fin 2) * 16 + 16; rw [e5]; omega

/-- So the result array ends holding the pooled array. -/
theorem final (c : Dev nD) : (dat2 (F := Ideal) V c).arrAt 2 cfg2.N = pooled V c :=
  (dat2 (F := Ideal) V c).arrAt_eq_of_cover 2 (pooled V c) (flushed_eq V c) cover

end Final

end Pool

-- The TensorCore's buffer contents when the region is entered: every statement here holds at any such contents.
variable (V : (c : Dev nD) → (b : Ref sig .tc) → Buf (Elt Ideal) ((c : Thread nD τ).loc b))

/-- After the pooling region its result array is `pool` of the graph-word column and the node rows it reads. -/
theorem region2_array (c : Dev nD) :
    (dat2 (F := Ideal) V c).arrAt 2 cfg2.N
      = Cert.GraphSpec.pool (N := 100000) (C := 16) (G := 512) (V c (Pipeline.arrRef spec2 1)) (V c (Pipeline.arrRef spec2 0)) :=
  Pool.final V c

end Cert.KernelIdeal.RegionValue

end
-- ==== Proof.HeadValue.lean ====
/-
  The classifier head, one grid point over whole arrays: `relu(relu(P)·A₁ + c₁)·A₂ + c₂`, the two products on the matrix
  unit from a zero accumulator, the biases broadcast along the rows.
-/
import proofs.«403746_j59158879535366_1_alg».proof.Proof.Gen.KernelIdeal.Frame
import proofs.«403746_j59158879535366_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/-! ## The two products on the matrix unit, entry by entry -/

-- first product, [512,16] · [16,100]: the left operand's row is the entry's row, its column the summation index;
private theorem hidden_lhs_0 (i : S512x100.Idx) (q : dot_S512x16_S16x100_S512x100_1_0_0_1_n_n.contr.Idx) :
    (dot_S512x16_S16x100_S512x100_1_0_0_1_n_n.lhsIdx i q 0).val = (i 0).val := by
  unfold DotDims.lhsIdx
  rw [dif_neg (show ¬(0 : Fin S512x16.rank) ∈ dot_S512x16_S16x100_S512x100_1_0_0_1_n_n.lhsBatch by decide), dif_pos (show (0 : Fin S512x16.rank) ∈ dot_S512x16_S16x100_S512x100_1_0_0_1_n_n.lhsNonContracting by decide)]
  rfl
private theorem hidden_lhs_1 (i : S512x100.Idx) (q : dot_S512x16_S16x100_S512x100_1_0_0_1_n_n.contr.Idx) :
    (dot_S512x16_S16x100_S512x100_1_0_0_1_n_n.lhsIdx i q 1).val = (q ⟨0, by decide⟩).val :=
  dot_S512x16_S16x100_S512x100_1_0_0_1_n_n.lhsIdx_val_of_single rfl i q
-- the right operand's row is the summation index, its column the entry's column.
private theorem hidden_rhs_0 (i : S512x100.Idx) (q : dot_S512x16_S16x100_S512x100_1_0_0_1_n_n.contr.Idx) :
    (dot_S512x16_S16x100_S512x100_1_0_0_1_n_n.rhsIdx i q 0).val = (q ⟨0, by decide⟩).val :=
  dot_S512x16_S16x100_S512x100_1_0_0_1_n_n.rhsIdx_val_of_single rfl i q
private theorem hidden_rhs_1 (i : S512x100.Idx) (q : dot_S512x16_S16x100_S512x100_1_0_0_1_n_n.contr.Idx) :
    (dot_S512x16_S16x100_S512x100_1_0_0_1_n_n.rhsIdx i q 1).val = (i 1).val := by
  unfold DotDims.rhsIdx
  rw [dif_neg (show ¬(1 : Fin S16x100.rank) ∈ dot_S512x16_S16x100_S512x100_1_0_0_1_n_n.rhsBatch by decide), dif_pos (show (1 : Fin S16x100.rank) ∈ dot_S512x16_S16x100_S512x100_1_0_0_1_n_n.rhsNonContracting by decide)]
  rfl

/-- The first product from a zero accumulator, at entry (n, j): `∑ₖ X[n, k] · W[k, j]`. -/
private theorem hidden_product_apply {φ₁ φ₂ : FTy} (X : FVec Ideal S512x16 φ₁) (W : FVec Ideal S16x100 φ₂) (i : S512x100.Idx) :
    matmul dot_S512x16_S16x100_S512x100_1_0_0_1_n_n none X W (constant (F := Ideal) S512x100 .f32 0x00000000#32) i
      = ∑ k : Fin 16, X (ix2 ⟨(i 0).val, (i 0).isLt⟩ k) * W (ix2 k ⟨(i 1).val, (i 1).isLt⟩) := by
  simp only [matmul]
  rw [Ideal.matmul_constant_zero_apply, ← Equiv.sum_comp (ValueIdx.contrEquiv1 dot_S512x16_S16x100_S512x100_1_0_0_1_n_n 16 rfl rfl).symm]
  refine Finset.sum_congr rfl fun k _ => ?_
  have hk := ValueIdx.contrEquiv1_symm_val dot_S512x16_S16x100_S512x100_1_0_0_1_n_n 16 rfl rfl k
  have el : dot_S512x16_S16x100_S512x100_1_0_0_1_n_n.lhsIdx i ((ValueIdx.contrEquiv1 dot_S512x16_S16x100_S512x100_1_0_0_1_n_n 16 rfl rfl).symm k) = ix2 ⟨(i 0).val, (i 0).isLt⟩ k := funext fun a => Fin.ext (by
    match a with
    | ⟨0, _⟩ => exact hidden_lhs_0 _ _
    | ⟨1, _⟩ => exact (hidden_lhs_1 _ _).trans hk)
  have er : dot_S512x16_S16x100_S512x100_1_0_0_1_n_n.rhsIdx i ((ValueIdx.contrEquiv1 dot_S512x16_S16x100_S512x100_1_0_0_1_n_n 16 rfl rfl).symm k) = ix2 k ⟨(i 1).val, (i 1).isLt⟩ := funext fun a => Fin.ext (by
    match a with
    | ⟨0, _⟩ => exact (hidden_rhs_0 _ _).trans hk
    | ⟨1, _⟩ => exact hidden_rhs_1 _ _)
  rw [el, er]
  rfl

-- second product, [512,100] · [100,12]: the same four readings.
private theorem logit_lhs_0 (i : S512x12.Idx) (q : dot_S512x100_S100x12_S512x12_1_0_0_1_n_n.contr.Idx) :
    (dot_S512x100_S100x12_S512x12_1_0_0_1_n_n.lhsIdx i q 0).val = (i 0).val := by
  unfold DotDims.lhsIdx
  rw [dif_neg (show ¬(0 : Fin S512x100.rank) ∈ dot_S512x100_S100x12_S512x12_1_0_0_1_n_n.lhsBatch by decide), dif_pos (show (0 : Fin S512x100.rank) ∈ dot_S512x100_S100x12_S512x12_1_0_0_1_n_n.lhsNonContracting by decide)]
  rfl
private theorem logit_lhs_1 (i : S512x12.Idx) (q : dot_S512x100_S100x12_S512x12_1_0_0_1_n_n.contr.Idx) :
    (dot_S512x100_S100x12_S512x12_1_0_0_1_n_n.lhsIdx i q 1).val = (q ⟨0, by decide⟩).val :=
  dot_S512x100_S100x12_S512x12_1_0_0_1_n_n.lhsIdx_val_of_single rfl i q
private theorem logit_rhs_0 (i : S512x12.Idx) (q : dot_S512x100_S100x12_S512x12_1_0_0_1_n_n.contr.Idx) :
    (dot_S512x100_S100x12_S512x12_1_0_0_1_n_n.rhsIdx i q 0).val = (q ⟨0, by decide⟩).val :=
  dot_S512x100_S100x12_S512x12_1_0_0_1_n_n.rhsIdx_val_of_single rfl i q
private theorem logit_rhs_1 (i : S512x12.Idx) (q : dot_S512x100_S100x12_S512x12_1_0_0_1_n_n.contr.Idx) :
    (dot_S512x100_S100x12_S512x12_1_0_0_1_n_n.rhsIdx i q 1).val = (i 1).val := by
  unfold DotDims.rhsIdx
  rw [dif_neg (show ¬(1 : Fin S100x12.rank) ∈ dot_S512x100_S100x12_S512x12_1_0_0_1_n_n.rhsBatch by decide), dif_pos (show (1 : Fin S100x12.rank) ∈ dot_S512x100_S100x12_S512x12_1_0_0_1_n_n.rhsNonContracting by decide)]
  rfl

/-- The second product from a zero accumulator, at entry (n, j): `∑ₖ X[n, k] · W[k, j]`. -/
private theorem logit_product_apply {φ₁ φ₂ : FTy} (X : FVec Ideal S512x100 φ₁) (W : FVec Ideal S100x12 φ₂) (i : S512x12.Idx) :
    matmul dot_S512x100_S100x12_S512x12_1_0_0_1_n_n none X W (constant (F := Ideal) S512x12 .f32 0x00000000#32) i
      = ∑ k : Fin 100, X (ix2 ⟨(i 0).val, (i 0).isLt⟩ k) * W (ix2 k ⟨(i 1).val, (i 1).isLt⟩) := by
  simp only [matmul]
  rw [Ideal.matmul_constant_zero_apply, ← Equiv.sum_comp (ValueIdx.contrEquiv1 dot_S512x100_S100x12_S512x12_1_0_0_1_n_n 100 rfl rfl).symm]
  refine Finset.sum_congr rfl fun k _ => ?_
  have hk := ValueIdx.contrEquiv1_symm_val dot_S512x100_S100x12_S512x12_1_0_0_1_n_n 100 rfl rfl k
  have el : dot_S512x100_S100x12_S512x12_1_0_0_1_n_n.lhsIdx i ((ValueIdx.contrEquiv1 dot_S512x100_S100x12_S512x12_1_0_0_1_n_n 100 rfl rfl).symm k) = ix2 ⟨(i 0).val, (i 0).isLt⟩ k := funext fun a => Fin.ext (by
    match a with
    | ⟨0, _⟩ => exact logit_lhs_0 _ _
    | ⟨1, _⟩ => exact (logit_lhs_1 _ _).trans hk)
  have er : dot_S512x100_S100x12_S512x12_1_0_0_1_n_n.rhsIdx i ((ValueIdx.contrEquiv1 dot_S512x100_S100x12_S512x12_1_0_0_1_n_n 100 rfl rfl).symm k) = ix2 k ⟨(i 1).val, (i 1).isLt⟩ := funext fun a => Fin.ext (by
    match a with
    | ⟨0, _⟩ => exact (logit_rhs_0 _ _).trans hk
    | ⟨1, _⟩ => exact logit_rhs_1 _ _)
  rw [el, er]
  rfl

/-! ## The body's arithmetic -/

/-- What the body stores, from the five arrays it loads, is the classifier of them: entry by entry, the outer sum's
    term at `k` is the hidden unit `relu(∑ relu(P)·A₁ + c₁)` at `(row, k)` times `A₂[k, column]`, the bias rows are read at
    the entry's column whatever its row, a cast to the narrower float is the identity on extended reals, and the zero
    word is `0`. -/
private theorem head_payload (P : Vec Ideal S512x16 .f32) (A₁ : Vec Ideal S16x100 .f32) (c₁ : Vec Ideal S100 .f32)
    (A₂ : Vec Ideal S100x12 .f32) (c₂ : Vec Ideal S12 .f32) :
    k3_pay1 (F := Ideal) P A₁ c₁ A₂ c₂ = Cert.GraphSpec.head (G := 512) (D := 16) (M := 100) (Q := 12) P A₁ c₁ A₂ c₂ := by
  funext i
  obtain ⟨p, q, rfl⟩ : ∃ (p : Fin 512) (q : Fin 12), i = ix2 p q := ⟨i 0, i 1, eq_ix2 i⟩
  unfold k3_pay1
  rw [addf_apply, logit_product_apply, broadcastTo_1b_ab_apply, shapeCast_a_1a_apply]
  unfold Cert.GraphSpec.head Cert.GraphSpec.linear
  refine congrArg₂ (· + ·) (Finset.sum_congr rfl fun k _ => ?_) rfl
  rw [truncf_apply, truncf_apply, maximumf_apply, addf_apply, hidden_product_apply, broadcastTo_1b_ab_apply,
    shapeCast_a_1a_apply, broadcast_apply]
  simp only [truncf_apply, maximumf_apply, broadcast_apply, shapeCast_self, Ideal.ofBits_def, Ideal.ofBits_zero_f32]

/-! ## One grid point over whole arrays -/

-- The TensorCore's buffer contents when the region is entered: every statement here holds at any such contents.
variable (V : (c : Dev nD) → (b : Ref sig .tc) → Buf (Elt Ideal) ((c : Thread nD τ).loc b))

private theorem head_zero₂ : (![0, 0] : Fin 2 → Nat) = fun _ => 0 := funext fun a => by fin_cases a <;> rfl
private theorem head_zero₁ : (![0] : Fin 1 → Nat) = fun _ => 0 := funext fun a => by fin_cases a; rfl

/-- The printed index maps, decided over the grid: every window's block index is zero on every axis. -/
private theorem head_index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

-- Each input window's block is its whole array: a block's coordinate in the array is index × size + the coordinate
-- inside the block, and every index is zero.
private theorem head_block0 (c : Dev nD) (t : Fin cfg3.N) : iblk3 V c 0 t = V c (Pipeline.arrRef spec3 0) := by
  obtain ⟨e0, e1, -⟩ := head_index_facts t
  funext y
  show V c (Pipeline.arrRef spec3 0) (((cfg3.win 0).blk t).view.emb y) = V c (Pipeline.arrRef spec3 0) y
  refine congrArg _ (funext fun a => Fin.ext ?_)
  match a with
  | ⟨0, _⟩ => show win3_0.index t (0 : Fin 2) * 512 + 1 * (y 0).val = (y 0).val; omega
  | ⟨1, _⟩ => show win3_0.index t (1 : Fin 2) * 16 + 1 * (y 1).val = (y 1).val; omega
private theorem head_block1 (c : Dev nD) (t : Fin cfg3.N) : iblk3 V c 1 t = V c (Pipeline.arrRef spec3 1) := by
  obtain ⟨-, -, e0, e1, -⟩ := head_index_facts t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 16 + 1 * (y 0).val = (y 0).val; omega
  | ⟨1, _⟩ => show win3_1.index t (1 : Fin 2) * 100 + 1 * (y 1).val = (y 1).val; omega
private theorem head_block2 (c : Dev nD) (t : Fin cfg3.N) : iblk3 V c 2 t = V c (Pipeline.arrRef spec3 2) := by
  obtain ⟨-, -, -, -, e0, -⟩ := head_index_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 1) * 100 + 1 * (y 0).val = (y 0).val; omega
private theorem head_block3 (c : Dev nD) (t : Fin cfg3.N) : iblk3 V c 3 t = V c (Pipeline.arrRef spec3 3) := by
  obtain ⟨-, -, -, -, -, e0, e1, -⟩ := head_index_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 100 + 1 * (y 0).val = (y 0).val; omega
  | ⟨1, _⟩ => show win3_3.index t (1 : Fin 2) * 12 + 1 * (y 1).val = (y 1).val; omega
private theorem head_block4 (c : Dev nD) (t : Fin cfg3.N) : iblk3 V c 4 t = V c (Pipeline.arrRef spec3 4) := by
  obtain ⟨-, -, -, -, -, -, -, e0, -⟩ := head_index_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 1) * 12 + 1 * (y 0).val = (y 0).val; omega

set_option maxHeartbeats 1000000 in
/-- What the one point writes back is the (whole-array) block of the classifier of the five arrays as the region
    finds them: the body's one store covers its buffer, its loads read whole buffers, and each buffer holds its array. -/
private theorem head_flushed (c : Dev nD) (t : Fin cfg3.N) :
    (dat3 (F := Ideal) V c).flushed 5 t = ((cfg3.win 5).blk t).view.read (Elt Ideal)
      (Cert.GraphSpec.head (G := 512) (D := 16) (M := 100) (Q := 12) (V c (Pipeline.arrRef spec3 0)) (V c (Pipeline.arrRef spec3 1))
          (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero head_zero₂]
  simp only [View.ld_unit_zero (S := S512x16) head_zero₂, View.ld_unit_zero (S := S16x100) head_zero₂,
    View.ld_unit_zero (S := S100) head_zero₁, View.ld_unit_zero (S := S100x12) head_zero₂,
    View.ld_unit_zero (S := S12) head_zero₁]
  rw [head_payload, head_block0, head_block1, head_block2, head_block3, head_block4]
  obtain ⟨-, -, -, -, -, -, -, -, e0, e1⟩ := head_index_facts t
  funext j
  show Cert.GraphSpec.head (G := 512) (D := 16) (M := 100) (Q := 12) (V c (Pipeline.arrRef spec3 0)) (V c (Pipeline.arrRef spec3 1))
      (V c (Pipeline.arrRef spec3 2)) (V c (Pipeline.arrRef spec3 3)) (V c (Pipeline.arrRef spec3 4)) j
    = Cert.GraphSpec.head (G := 512) (D := 16) (M := 100) (Q := 12) (V c (Pipeline.arrRef spec3 0)) (V c (Pipeline.arrRef spec3 1))
      (V c (Pipeline.arrRef spec3 2)) (V c (Pipeline.arrRef spec3 3)) (V c (Pipeline.arrRef spec3 4)) (((cfg3.win 5).blk t).view.emb j)
  refine congrArg _ (funext fun a => Fin.ext ?_)
  match a with
  | ⟨0, _⟩ => show (j 0).val = win3_5.index t (0 : Fin 2) * 512 + 1 * (j 0).val; omega
  | ⟨1, _⟩ => show (j 1).val = win3_5.index t (1 : Fin 2) * 12 + 1 * (j 1).val; omega

/-- An index of the result array is in the point's block iff each coordinate is in the block's range on its axis. -/
private theorem head_mem_block (t : Fin cfg3.N) (i : S512x12.Idx) :
    i ∈ ((cfg3.win 5).blk t).view.set ↔ ∀ a : Fin 2, win3_5.index t a * S512x12.size a ≤ (i a).val ∧ (i a).val < win3_5.index t a * S512x12.size a + S512x12.size a := by
  show i ∈ ((View.whole main_v68).slice (win3_5.rect t)).set ↔ _
  rw [View.set_slice_whole, Rect.mem_set_unit]
  exact Iff.rfl

/-- The one point's block is the whole result array, so every index is covered. -/
private theorem head_cover (i : S512x12.Idx) :
    ∃ t : Fin cfg3.N, (cfg3.win 5).flush t = true ∧ i ∈ ((cfg3.win 5).blk t).view.set := by
  refine ⟨t3_0, flush3_5 t3_0, ?_⟩
  rw [head_mem_block]
  obtain ⟨-, -, -, -, -, -, -, -, e0, e1⟩ := head_index_facts t3_0
  have hi0 : (i 0).val < 512 := (i 0).isLt
  have hi1 : (i 1).val < 12 := (i 1).isLt
  intro a
  match a with
  | ⟨0, _⟩ => show win3_5.index t3_0 (0 : Fin 2) * 512 ≤ (i 0).val ∧ (i 0).val < win3_5.index t3_0 (0 : Fin 2) * 512 + 512; omega
  | ⟨1, _⟩ => show win3_5.index t3_0 (1 : Fin 2) * 12 ≤ (i 1).val ∧ (i 1).val < win3_5.index t3_0 (1 : Fin 2) * 12 + 12; omega

/-- After the classifier's region its result array is `head` of the five arrays it reads. -/
theorem region3_array (c : Dev nD) :
    (dat3 (F := Ideal) V c).arrAt 5 cfg3.N
      = Cert.GraphSpec.head (G := 512) (D := 16) (M := 100) (Q := 12) (V c (Pipeline.arrRef spec3 0)) (V c (Pipeline.arrRef spec3 1))
          (V c (Pipeline.arrRef spec3 2)) (V c (Pipeline.arrRef spec3 3)) (V c (Pipeline.arrRef spec3 4)) := by
  exact (dat3 (F := Ideal) V c).arrAt_eq_of_cover 5 _ (fun t _ => head_flushed V c t) head_cover

end Cert.KernelIdeal.RegionValue

end
-- ==== Proof.RefStages.lean ====
/-
  Three of the reference's stages that a kernel region replaces, each read at the extended reals as the function it is:
  the two layers' `dot_general`s are `linear` (the textbook contraction onto a zero accumulator), and the last ten
  operations are `head`.
-/
import proofs.«403746_j59158879535366_1_alg».proof.Proof.RefRead
import proofs.«403746_j59158879535366_1_alg».proof.Proof.GraphSpec
import Idealize.ShloMosaic.PureOps.Ideal.Laws
import Idealize.ShloMosaic.Lib.ValueIdx
import Idealize.ShloMosaic.Lib.Pipeline.Value

noncomputable section

open scoped BigOperators

namespace Cert.ReferenceIdeal.Stages

open Cert.ReferenceIdeal Cert.ReferenceIdeal.Gen Cert.ReferenceIdeal.ReadP
open Idealize.ShloMosaic Idealize.ShloMosaic.TcCoe Idealize.ShloMosaic.ValueIdx

/-- The contraction `dot_S100000x128_S128x16_S100000x16_1_0_0_1_n_n` read at an output index, for any left operand: entry `(n, j)` is the sum over the one
    contracted axis `k` of the left operand at `(n, k)` times the right operand at `(k, j)`. -/
private theorem dot_first_apply (X : FVec Ideal S100000x128 .f32) (W : FVec Ideal S128x16 .f32) (i : S100000x16.Idx) :
    Host.dotGeneral (F := Ideal) dot_S100000x128_S128x16_S100000x16_1_0_0_1_n_n none X W i
      = ∑ k : Fin 128, X (ix2 ⟨(i 0).val, (i 0).isLt⟩ k) * W (ix2 k ⟨(i 1).val, (i 1).isLt⟩) := by
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k)
      = ix2 ⟨(i 0).val, (i 0).isLt⟩ k := funext fun a => Fin.ext (by
    match a with
    | ⟨0, _⟩ => exact lhs_main_v30_0 _ _
    | ⟨1, _⟩ => exact (lhs_main_v30_1 _ _).trans hk)
  have er : dot_S100000x128_S128x16_S100000x16_1_0_0_1_n_n.rhsIdx i ((ValueIdx.contrEquiv1 dot_S100000x128_S128x16_S100000x16_1_0_0_1_n_n 128 rfl rfl).symm k)
      = ix2 k ⟨(i 1).val, (i 1).isLt⟩ := funext fun a => Fin.ext (by
    match a with
    | ⟨0, _⟩ => exact (rhs_main_v30_0 _ _).trans hk
    | ⟨1, _⟩ => exact rhs_main_v30_1 _ _)
  rw [el, er]
  rfl

/-- The contraction `dot_S100000x16_S16x16_S100000x16_1_0_0_1_n_n` read at an output index, for any left operand: entry `(n, j)` is the sum over the one
    contracted axis `k` of the left operand at `(n, k)` times the right operand at `(k, j)`. -/
private theorem dot_second_apply (X : FVec Ideal S100000x16 .f32) (W : FVec Ideal S16x16 .f32) (i : S100000x16.Idx) :
    Host.dotGeneral (F := Ideal) dot_S100000x16_S16x16_S100000x16_1_0_0_1_n_n none X W i
      = ∑ k : Fin 16, X (ix2 ⟨(i 0).val, (i 0).isLt⟩ k) * W (ix2 k ⟨(i 1).val, (i 1).isLt⟩) := by
  simp only [Host.dotGeneral]
  rw [Ideal.dotGeneral_apply, ← Equiv.sum_comp (ValueIdx.contrEquiv1 dot_S100000x16_S16x16_S100000x16_1_0_0_1_n_n 16 rfl rfl).symm]
  refine Finset.sum_congr rfl fun k _ => ?_
  have hk := ValueIdx.contrEquiv1_symm_val dot_S100000x16_S16x16_S100000x16_1_0_0_1_n_n 16 rfl rfl k
  have el : dot_S100000x16_S16x16_S100000x16_1_0_0_1_n_n.lhsIdx i ((ValueIdx.contrEquiv1 dot_S100000x16_S16x16_S100000x16_1_0_0_1_n_n 16 rfl rfl).symm k)
      = ix2 ⟨(i 0).val, (i 0).isLt⟩ k := funext fun a => Fin.ext (by
    match a with
    | ⟨0, _⟩ => exact lhs_main_v48_0 _ _
    | ⟨1, _⟩ => exact (lhs_main_v48_1 _ _).trans hk)
  have er : dot_S100000x16_S16x16_S100000x16_1_0_0_1_n_n.rhsIdx i ((ValueIdx.contrEquiv1 dot_S100000x16_S16x16_S100000x16_1_0_0_1_n_n 16 rfl rfl).symm k)
      = ix2 k ⟨(i 1).val, (i 1).isLt⟩ := funext fun a => Fin.ext (by
    match a with
    | ⟨0, _⟩ => exact (rhs_main_v48_0 _ _).trans hk
    | ⟨1, _⟩ => exact rhs_main_v48_1 _ _)
  rw [el, er]
  rfl

/-- The contraction `dot_S512x16_S16x100_S512x100_1_0_0_1_n_n` read at an output index, for any left operand: entry `(n, j)` is the sum over the one
    contracted axis `k` of the left operand at `(n, k)` times the right operand at `(k, j)`. -/
private theorem dot_hidden_apply (X : FVec Ideal S512x16 .f32) (W : FVec Ideal S16x100 .f32) (i : S512x100.Idx) :
    Host.dotGeneral (F := Ideal) dot_S512x16_S16x100_S512x100_1_0_0_1_n_n none X W i
      = ∑ k : Fin 16, X (ix2 ⟨(i 0).val, (i 0).isLt⟩ k) * W (ix2 k ⟨(i 1).val, (i 1).isLt⟩) := by
  simp only [Host.dotGeneral]
  rw [Ideal.dotGeneral_apply, ← Equiv.sum_comp (ValueIdx.contrEquiv1 dot_S512x16_S16x100_S512x100_1_0_0_1_n_n 16 rfl rfl).symm]
  refine Finset.sum_congr rfl fun k _ => ?_
  have hk := ValueIdx.contrEquiv1_symm_val dot_S512x16_S16x100_S512x100_1_0_0_1_n_n 16 rfl rfl k
  have el : dot_S512x16_S16x100_S512x100_1_0_0_1_n_n.lhsIdx i ((ValueIdx.contrEquiv1 dot_S512x16_S16x100_S512x100_1_0_0_1_n_n 16 rfl rfl).symm k)
      = ix2 ⟨(i 0).val, (i 0).isLt⟩ k := funext fun a => Fin.ext (by
    match a with
    | ⟨0, _⟩ => exact lhs_main_v70_0 _ _
    | ⟨1, _⟩ => exact (lhs_main_v70_1 _ _).trans hk)
  have er : dot_S512x16_S16x100_S512x100_1_0_0_1_n_n.rhsIdx i ((ValueIdx.contrEquiv1 dot_S512x16_S16x100_S512x100_1_0_0_1_n_n 16 rfl rfl).symm k)
      = ix2 k ⟨(i 1).val, (i 1).isLt⟩ := funext fun a => Fin.ext (by
    match a with
    | ⟨0, _⟩ => exact (rhs_main_v70_0 _ _).trans hk
    | ⟨1, _⟩ => exact rhs_main_v70_1 _ _)
  rw [el, er]
  rfl

/-- The contraction `dot_S512x100_S100x12_S512x12_1_0_0_1_n_n` read at an output index, for any left operand: entry `(n, j)` is the sum over the one
    contracted axis `k` of the left operand at `(n, k)` times the right operand at `(k, j)`. -/
private theorem dot_out_apply (X : FVec Ideal S512x100 .f32) (W : FVec Ideal S100x12 .f32) (i : S512x12.Idx) :
    Host.dotGeneral (F := Ideal) dot_S512x100_S100x12_S512x12_1_0_0_1_n_n none X W i
      = ∑ k : Fin 100, X (ix2 ⟨(i 0).val, (i 0).isLt⟩ k) * W (ix2 k ⟨(i 1).val, (i 1).isLt⟩) := by
  simp only [Host.dotGeneral]
  rw [Ideal.dotGeneral_apply, ← Equiv.sum_comp (ValueIdx.contrEquiv1 dot_S512x100_S100x12_S512x12_1_0_0_1_n_n 100 rfl rfl).symm]
  refine Finset.sum_congr rfl fun k _ => ?_
  have hk := ValueIdx.contrEquiv1_symm_val dot_S512x100_S100x12_S512x12_1_0_0_1_n_n 100 rfl rfl k
  have el : dot_S512x100_S100x12_S512x12_1_0_0_1_n_n.lhsIdx i ((ValueIdx.contrEquiv1 dot_S512x100_S100x12_S512x12_1_0_0_1_n_n 100 rfl rfl).symm k)
      = ix2 ⟨(i 0).val, (i 0).isLt⟩ k := funext fun a => Fin.ext (by
    match a with
    | ⟨0, _⟩ => exact lhs_main_v75_0 _ _
    | ⟨1, _⟩ => exact (lhs_main_v75_1 _ _).trans hk)
  have er : dot_S512x100_S100x12_S512x12_1_0_0_1_n_n.rhsIdx i ((ValueIdx.contrEquiv1 dot_S512x100_S100x12_S512x12_1_0_0_1_n_n 100 rfl rfl).symm k)
      = ix2 k ⟨(i 1).val, (i 1).isLt⟩ := funext fun a => Fin.ext (by
    match a with
    | ⟨0, _⟩ => exact (rhs_main_v75_0 _ _).trans hk
    | ⟨1, _⟩ => exact rhs_main_v75_1 _ _)
  rw [el, er]
  rfl

/-- The operand the first `relu` compares with is the zero constant spread over every entry. -/
private theorem zero_pooled (q : S512x16.Idx) : val_main_call3_v0 (F := Ideal) q = 0 := by
  rw [val_main_call3_v0_apply, val_main_call3_cst_apply]
  exact Ideal.ofBits_zero_f32

/-- The operand the second `relu` compares with is the zero constant spread over every entry. -/
private theorem zero_hidden (j : S512x100.Idx) : val_main_call4_v0 (F := Ideal) j = 0 := by
  rw [val_main_call4_v0_apply, val_main_call4_cst_apply]
  exact Ideal.ofBits_zero_f32

/-- The first bias spread over the rows: entry `(g, m)` is the bias's entry `m`. -/
private theorem bias_hidden (x8 : FVec Ideal S100 .f32) (j : S512x100.Idx) :
    val_main_v72 (F := Ideal) x8 j = x8 (ix1 ⟨(j 1).val, (j 1).isLt⟩) := by
  rw [val_main_v72_apply, val_main_v71_apply]
  exact congrArg x8 (funext fun a => Fin.ext (by match a with | ⟨0, _⟩ => rfl))

/-- The second bias spread over the rows: entry `(g, q)` is the bias's entry `q`. -/
private theorem bias_out (x10 : FVec Ideal S12 .f32) (i : S512x12.Idx) :
    val_main_v77 (F := Ideal) x10 i = x10 (ix1 ⟨(i 1).val, (i 1).isLt⟩) := by
  rw [val_main_v77_apply, val_main_v76_apply]
  exact congrArg x10 (funext fun a => Fin.ext (by match a with | ⟨0, _⟩ => rfl))

/-- The first layer's `dot_general` is `linear`. -/
theorem dot_first (X : FVec Ideal S100000x128 .f32) (W : FVec Ideal S128x16 .f32) :
    Host.dotGeneral (F := Ideal) dot_S100000x128_S128x16_S100000x16_1_0_0_1_n_n none X W
      = Cert.GraphSpec.linear (N := 100000) (K := 128) (J := 16) X W := by
  funext i
  exact dot_first_apply X W i

/-- The second layer's `dot_general` is `linear`. -/
theorem dot_second (X : FVec Ideal S100000x16 .f32) (W : FVec Ideal S16x16 .f32) :
    Host.dotGeneral (F := Ideal) dot_S100000x16_S16x16_S100000x16_1_0_0_1_n_n none X W
      = Cert.GraphSpec.linear (N := 100000) (K := 16) (J := 16) X W := by
  funext i
  exact dot_second_apply X W i

/-- The reference's last ten operations, from the pooled rows `P` on, are `head`. -/
theorem head_stages (P : FVec Ideal S512x16 .f32) (x7 : FVec Ideal S16x100 .f32) (x8 : FVec Ideal S100 .f32)
    (x9 : FVec Ideal S100x12 .f32) (x10 : FVec Ideal S12 .f32) :
    addf (Host.dotGeneral (F := Ideal) dot_S512x100_S100x12_S512x12_1_0_0_1_n_n none
        (maximumf (addf (Host.dotGeneral (F := Ideal) dot_S512x16_S16x100_S512x100_1_0_0_1_n_n none
            (maximumf P (val_main_call3_v0 (F := Ideal))) x7) (val_main_v72 (F := Ideal) x8)) (val_main_call4_v0 (F := Ideal))) x9)
      (val_main_v77 (F := Ideal) x10)
      = Cert.GraphSpec.head (G := 512) (D := 16) (M := 100) (Q := 12) P x7 x8 x9 x10 := by
  -- the first relu, as a function of the entry
  have h1 : maximumf P (val_main_call3_v0 (F := Ideal)) = fun q => max (P q) 0 := by
    funext q
    rw [maximumf_apply, zero_pooled]
  -- the hidden layer, entry by entry: relu of (relu P · A₁ + c₁)
  have h2 : maximumf (addf (Host.dotGeneral (F := Ideal) dot_S512x16_S16x100_S512x100_1_0_0_1_n_n none
        (maximumf P (val_main_call3_v0 (F := Ideal))) x7) (val_main_v72 (F := Ideal) x8)) (val_main_call4_v0 (F := Ideal))
      = fun j => max (Cert.GraphSpec.linear (N := 512) (K := 16) (J := 100) (fun q => max (P q) 0) x7 j
          + x8 (ix1 ⟨(j 1).val, (j 1).isLt⟩)) 0 := by
    funext j
    rw [maximumf_apply, addf_apply, zero_hidden, bias_hidden, h1, dot_hidden_apply]
    rfl
  funext i
  rw [h2, addf_apply, bias_out, dot_out_apply]
  rfl

end Cert.ReferenceIdeal.Stages

end
-- ==== Proof.RefPool.lean ====
/-
  The reference's pooling stage read at the extended reals: a scatter-add of the node rows into a zero array, row index
  taken from the column of graph words. An update (r, j) lands on (g, j) exactly when node r's word, read signed, is g
  with 0 ≤ g < 512; a word outside that range lands nowhere. So entry (g, j) is the sum of `H[r, j]` over the nodes whose
  word is the word of g: `pool`.
-/
import proofs.«403746_j59158879535366_1_alg».proof.Proof.RefRead
import proofs.«403746_j59158879535366_1_alg».proof.Proof.GraphSpec
import Idealize.ShloMosaic.PureOps.Ideal.Laws
import Idealize.ShloMosaic.Lib.ValueIdx
import Idealize.ShloMosaic.Lib.Pipeline.Value

noncomputable section

open scoped BigOperators

namespace Cert.ReferenceIdeal.Stages

open Cert.ReferenceIdeal Cert.ReferenceIdeal.Gen Cert.ReferenceIdeal.ReadP
open Idealize.ShloMosaic Idealize.ShloMosaic.TcCoe Idealize.ShloMosaic.ValueIdx

/-! ### Where one update lands

  The pooling scatter has one scattered axis (rows, axis 0, named by the single component of the index vector) and one
  window axis (columns, axis 1). For the update at (r, q): the row start is the signed reading of the word at (r, 0) of
  the index column and the row window coordinate is 0; the column start is 0 and the column window coordinate is q. -/

/-- The pooling scatter's dimension record, under a short name. -/
private abbrev poolDims := scatter_S512x16_S100000x1_S100000x16_1_0_0_1

/-- The index column is read, for the update (r, q), at (r, 0): the row coordinate is the update's own row, the second
    coordinate is the number of the (only) start component. -/
private theorem siIdx_pool (r : Fin 100000) (q : Fin 16) (c : Fin poolDims.scatterDimsToOperandDims.length) :
    poolDims.siIdx (ix2 r q) c = ix2 r 0 := by
  funext b
  match b with
  | ⟨0, _⟩ => rfl
  | ⟨1, _⟩ =>
    exact Fin.ext (by
      have := c.isLt
      simp only [poolDims, scatter_S512x16_S100000x1_S100000x16_1_0_0_1, List.length_cons, List.length_nil] at this
      show c.val = 0
      omega)

/-- Row start of the update (r, q): the word of node r, read signed. -/
private theorem start_row (bv : IVec S100000x1 32) (r : Fin 100000) (q : Fin 16) :
    poolDims.start (ix2 r q) bv (0 : Fin 2) = (bv (ix2 r 0)).toInt := by
  unfold ScatterDims.start
  rw [dif_pos (by decide), siIdx_pool]

/-- Column start of any update: 0 (the index vector names no column). -/
private theorem start_col (bv : IVec S100000x1 32) (r : Fin 100000) (q : Fin 16) :
    poolDims.start (ix2 r q) bv (1 : Fin 2) = 0 := rfl

/-- Row window coordinate of any update: 0 (rows are the inserted axis). -/
private theorem window_row (r : Fin 100000) (q : Fin 16) : poolDims.window (ix2 r q) (0 : Fin 2) = 0 := rfl

/-- Column window coordinate of the update (r, q): q. -/
private theorem window_col (r : Fin 100000) (q : Fin 16) : poolDims.window (ix2 r q) (1 : Fin 2) = q.val := rfl

/-- The update (r, q) lands on the entry `i` exactly when node r's word, read signed, is `i`'s row and q is `i`'s column.
    (The range conditions of the scatter hold by themselves once these two equalities do, since `i` is an index of the
    512 × 16 array; and when they fail for the landing place, no entry is hit at all.) -/
private theorem lands_iff (bv : IVec S100000x1 32) (r : Fin 100000) (q : Fin 16) (i : S512x16.Idx) :
    poolDims.resultIdx? (ix2 r q) bv = some i ↔ (bv (ix2 r 0)).toInt = ((i 0).val : Int) ∧ q.val = (i 1).val := by
  have hi0 : (i 0).val < 512 := (i 0).isLt
  have hi1 : (i 1).val < 16 := (i 1).isLt
  have hq : q.val < 16 := q.isLt
  unfold ScatterDims.resultIdx?
  by_cases h : ∀ a, 0 ≤ poolDims.start (ix2 r q) bv a + poolDims.window (ix2 r q) a ∧
      poolDims.start (ix2 r q) bv a + poolDims.window (ix2 r q) a < S512x16.size a
  · rw [dif_pos h, Option.some.injEq]
    have h' := h
    rw [Fin.forall_fin_two, start_row, start_col, window_row, window_col] at h'
    obtain ⟨⟨h0a, h0b⟩, h1a, h1b⟩ := h'
    have h0b' : (bv (ix2 r 0)).toInt + ((0 : Nat) : Int) < 512 := h0b
    constructor
    · intro e
      have e0 := congrArg Fin.val (congrFun e 0)
      have e1 := congrArg Fin.val (congrFun e 1)
      simp only [start_row, start_col, window_row, window_col] at e0 e1
      constructor <;> omega
    · rintro ⟨e0, e1⟩
      funext a
      revert a
      rw [Fin.forall_fin_two]
      constructor
      · apply Fin.ext
        simp only [start_row, window_row]
        omega
      · apply Fin.ext
        simp only [start_col, window_col]
        omega
  · rw [dif_neg h]
    constructor
    · intro e; cases e
    · rintro ⟨e0, e1⟩
      exfalso; apply h
      rw [Fin.forall_fin_two, start_row, start_col, window_row, window_col]
      refine ⟨⟨?_, ?_⟩, ?_, ?_⟩
      · omega
      · show (bv (ix2 r 0)).toInt + ((0 : Nat) : Int) < 512; omega
      · omega
      · show (0 : Int) + (q.val : Int) < 16; omega

/-- A 32-bit word read signed is the natural number g < 512 exactly when it is the word of g: the word of g has its top
    bit clear, so its signed and unsigned readings are both g, and the signed reading determines the word. -/
private theorem word_signed_eq_iff (w : BitVec 32) (g : Nat) (hg : g < 512) :
    w.toInt = (g : Int) ↔ w = BitVec.ofNat 32 g := by
  have hn : (BitVec.ofNat 32 g).toNat = g := by rw [BitVec.toNat_ofNat]; omega
  have key : (BitVec.ofNat 32 g).toInt = (g : Int) := by
    rw [BitVec.toInt_eq_toNat_of_lt (by rw [hn]; omega), hn]
  constructor
  · intro h; apply BitVec.eq_of_toInt_eq; rw [h, key]
  · rintro rfl; exact key

/-- The pooling scatter-add of node rows into the zero array, by the column of graph words, is `pool`. -/
theorem scatter_pool (bv : IVec S100000x1 32) (H : FVec Ideal S100000x16 .f32) :
    Host.scatterAdd (F := Ideal) scatter_S512x16_S100000x1_S100000x16_1_0_0_1 (val_main_v66 (F := Ideal)) bv H
      = Cert.GraphSpec.pool (N := 100000) (C := 16) (G := 512) bv H := by
  funext i
  -- the entry is the zero of the operand plus the sum of the updates that land on it
  unfold Host.scatterAdd
  rw [Ideal.hostScatterAdd_def]
  unfold Ideal.hostScatterAdd
  rw [val_main_v66_apply, val_main_cst_12_apply, Ideal.ofBits_def, Ideal.ofBits_zero_f32, zero_add]
  unfold Cert.GraphSpec.pool
  -- a sum over the updates (r, q), row by row
  rw [Finset.sum_filter, sum_idx2]
  apply Finset.sum_congr rfl
  intro r _
  have hi0 : (i 0).val < 512 := (i 0).isLt
  by_cases hb : bv (ix2 r 0) = BitVec.ofNat 32 (i 0).val
  · -- node r is in graph `i 0`: of its row exactly the entry in column `i 1` lands on `i`
    rw [if_pos hb]
    have hw := (word_signed_eq_iff _ _ hi0).2 hb
    rw [Finset.sum_eq_single_of_mem (⟨(i 1).val, (i 1).isLt⟩ : Fin 16) (Finset.mem_univ _)]
    · exact if_pos ((lands_iff bv r _ i).2 ⟨hw, rfl⟩)
    · intro q _ hq
      exact if_neg (fun h => hq (Fin.ext ((lands_iff bv r q i).1 h).2))
  · -- node r is in another graph, or in none: nothing of its row lands on `i`
    rw [if_neg hb]
    apply Finset.sum_eq_zero
    intro q _
    exact if_neg (fun h => hb ((word_signed_eq_iff _ _ hi0).1 ((lands_iff bv r q i).1 h).1))

end Cert.ReferenceIdeal.Stages

end
-- ==== Proof.Bridge.lean ====
/-
  The kernel program's result is the reference's. Walking the kernel's @main from launch: the edge lists, the per-node
  factor and the per-edge weight are the reference's stages of the edge input; the first product's region leaves
  `linear x W₁`, which is the reference's first `dot_general`; the first layer's glue maps it to the reference's relu'd
  layer; the second product and its glue likewise; the pooling region leaves `pool` of the graph words and the second
  layer, which is the reference's pooling scatter-add; and the classifier's region leaves `head` of the pooled rows,
  which is the reference's last ten operations. Every buffer is carried from the segment that writes it to the one that
  reads it through segments that do not touch it.
-/
import proofs.«403746_j59158879535366_1_alg».proof.Proof.Boundaries
import proofs.«403746_j59158879535366_1_alg».proof.Proof.LinearValue
import proofs.«403746_j59158879535366_1_alg».proof.Proof.PoolValue
import proofs.«403746_j59158879535366_1_alg».proof.Proof.HeadValue
import proofs.«403746_j59158879535366_1_alg».proof.Proof.RefStages
import proofs.«403746_j59158879535366_1_alg».proof.Proof.RefPool

set_option maxRecDepth 16384

noncomputable section

namespace Cert.KernelIdeal.Bridge

open Cert.KernelIdeal Cert.KernelIdeal.Gen Cert.KernelIdeal.Boundary Cert.KernelIdeal.RegionValue
open Cert.ReferenceIdeal.ReadP Cert.ReferenceIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument's launch contents. -/
abbrev A (r : Ref sig .tc) : Buf (Elt Ideal) ((c : Thread nD τ).loc r) := m ((c : Thread nD τ).loc r)

/-! ## Before the first region: the edge lists and the edge weights -/

theorem src_W1 : W1 m ρ c (Proc.devRef .tc main_v3) = val_main_v3 (F := Ideal) (A m c main_arg1) := edges_src (W0 m ρ c)
theorem dst_W1 : W1 m ρ c (Proc.devRef .tc main_v6) = val_main_v6 (F := Ideal) (A m c main_arg1) := edges_dst (W0 m ρ c)
theorem pos_W1 : W1 m ρ c (Proc.devRef .tc main_v12) = val_main_v12 (F := Ideal) (A m c main_arg1) := deg_pos (W0 m ρ c)
theorem rsq_W1 : W1 m ρ c (Proc.devRef .tc main_v13) = val_main_v13 (F := Ideal) (A m c main_arg1) := deg_rsqrt (W0 m ρ c)
theorem zero_W1 : W1 m ρ c (Proc.devRef .tc main_cst_2) = val_main_cst_2 (F := Ideal) := zero_scalar (W0 m ρ c)

theorem src_W2 : W2 m ρ c (Proc.devRef .tc main_v3) = val_main_v3 (F := Ideal) (A m c main_arg1) :=
  (W2_eq m ρ c main_v3 (by decide)).trans (src_W1 m ρ c)
theorem dst_W2 : W2 m ρ c (Proc.devRef .tc main_v6) = val_main_v6 (F := Ideal) (A m c main_arg1) :=
  (W2_eq m ρ c main_v6 (by decide)).trans (dst_W1 m ρ c)
theorem factor_W2 : W2 m ρ c (Proc.devRef .tc main_v14) = val_main_v14 (F := Ideal) (A m c main_arg1) :=
  node_factor (W1 m ρ c) _ (pos_W1 m ρ c) (rsq_W1 m ρ c) (zero_W1 m ρ c)

theorem src_W3 : W3 m ρ c (Proc.devRef .tc main_v3) = val_main_v3 (F := Ideal) (A m c main_arg1) :=
  (W3_eq m ρ c main_v3 (by decide)).trans (src_W2 m ρ c)
theorem dst_W3 : W3 m ρ c (Proc.devRef .tc main_v6) = val_main_v6 (F := Ideal) (A m c main_arg1) :=
  (W3_eq m ρ c main_v6 (by decide)).trans (dst_W2 m ρ c)
theorem weight_W3 : W3 m ρ c (Proc.devRef .tc main_v29) = val_main_v29 (F := Ideal) (A m c main_arg1) :=
  edge_weight (W2 m ρ c) _ (src_W2 m ρ c) (dst_W2 m ρ c) (factor_W2 m ρ c)

/-- A buffer the first three stretches do not write holds, when the first region is entered, what it held at launch. -/
theorem launch_W3 (r : Ref sig .tc) (h0 : r ∉ hostOps0_W) (h1 : r ∉ hostOps0_1_W) (h2 : r ∉ hostOps0_2_W) :
    W3 m ρ c (Proc.devRef .tc r) = A m c r :=
  (W3_eq m ρ c r h2).trans ((W2_eq m ρ c r h1).trans ((W1_eq m ρ c r h0).trans (W0_eq m ρ c r)))

/-! ## The first layer -/

theorem product1_W4 :
    W4 m ρ c (Proc.devRef .tc main_v30) = val_main_v30 (F := Ideal) (A m c main_arg0) (A m c main_arg3) :=
  (W4_arr m ρ c 2).trans ((region0_array (V3 m ρ) c).trans
    ((congrArg₂ (Cert.GraphSpec.linear (N := 100000) (K := 128) (J := 16))
        (launch_W3 m ρ c main_arg0 (by decide) (by decide) (by decide)) (launch_W3 m ρ c main_arg3 (by decide) (by decide) (by decide))).trans
      (dot_first (A m c main_arg0) (A m c main_arg3)).symm))

/-- A buffer neither the first three stretches nor the first region's arrays touch, at the first region's exit. -/
theorem launch_W4 (r : Ref sig .tc) (h0 : r ∉ hostOps0_W) (h1 : r ∉ hostOps0_1_W) (h2 : r ∉ hostOps0_2_W)
    (h3 : ∀ w, Pipeline.arrRef spec0 w ≠ r) : W4 m ρ c (Proc.devRef .tc r) = A m c r :=
  (W4_eq m ρ c r h3).trans (launch_W3 m ρ c r h0 h1 h2)

theorem layer1sum_W5 :
    W5 m ρ c (Proc.devRef .tc main_v46)
      = val_main_v46 (F := Ideal) (A m c main_arg0) (A m c main_arg1) (A m c main_arg3) (A m c main_arg4) :=
  layer1_sum (W4 m ρ c) _ _ _ _
    ((W4_eq m ρ c main_v3 (by decide)).trans (src_W3 m ρ c)) ((W4_eq m ρ c main_v6 (by decide)).trans (dst_W3 m ρ c))
    ((W4_eq m ρ c main_v29 (by decide)).trans (weight_W3 m ρ c)) (product1_W4 m ρ c)
    (launch_W4 m ρ c main_arg4 (by decide) (by decide) (by decide) (by decide))

theorem layer1_W6 :
    W6 m ρ c (Proc.devRef .tc main_v47)
      = val_main_v47 (F := Ideal) (A m c main_arg0) (A m c main_arg1) (A m c main_arg3) (A m c main_arg4) :=
  layer1_relu (W5 m ρ c) _ _ _ _ (layer1sum_W5 m ρ c)

/-- From the first region's exit to the second region's entry, through the first layer's glue. -/
theorem W6_W4 (r : Ref sig .tc) (h4 : r ∉ hostOps1_W) (h5 : r ∉ hostOps1_1_W) :
    W6 m ρ c (Proc.devRef .tc r) = W4 m ρ c (Proc.devRef .tc r) :=
  (W6_eq m ρ c r h5).trans (W5_eq m ρ c r h4)

/-! ## The second layer -/

theorem product2_W7 :
    W7 m ρ c (Proc.devRef .tc main_v48)
      = val_main_v48 (F := Ideal) (A m c main_arg0) (A m c main_arg1) (A m c main_arg3) (A m c main_arg4) (A m c main_arg5) :=
  (W7_arr m ρ c 2).trans ((region1_array (V6 m ρ) c).trans
    ((congrArg₂ (Cert.GraphSpec.linear (N := 100000) (K := 16) (J := 16))
        (layer1_W6 m ρ c)
        ((W6_W4 m ρ c main_arg5 (by decide) (by decide)).trans (launch_W4 m ρ c main_arg5 (by decide) (by decide) (by decide) (by decide)))).trans
      (dot_second _ (A m c main_arg5)).symm))

/-- From the first region's exit to the second region's exit. -/
theorem W7_W4 (r : Ref sig .tc) (h4 : r ∉ hostOps1_W) (h5 : r ∉ hostOps1_1_W) (h6 : ∀ w, Pipeline.arrRef spec1 w ≠ r) :
    W7 m ρ c (Proc.devRef .tc r) = W4 m ρ c (Proc.devRef .tc r) :=
  (W7_eq m ρ c r h6).trans (W6_W4 m ρ c r h4 h5)

theorem layer2sum_W8 :
    W8 m ρ c (Proc.devRef .tc main_v64)
      = val_main_v64 (F := Ideal) (A m c main_arg0) (A m c main_arg1) (A m c main_arg3) (A m c main_arg4) (A m c main_arg5)
          (A m c main_arg6) :=
  layer2_sum (W7 m ρ c) _ _ _ _ _ _
    ((W7_W4 m ρ c main_v3 (by decide) (by decide) (by decide)).trans ((W4_eq m ρ c main_v3 (by decide)).trans (src_W3 m ρ c)))
    ((W7_W4 m ρ c main_v6 (by decide) (by decide) (by decide)).trans ((W4_eq m ρ c main_v6 (by decide)).trans (dst_W3 m ρ c)))
    ((W7_W4 m ρ c main_v29 (by decide) (by decide) (by decide)).trans ((W4_eq m ρ c main_v29 (by decide)).trans (weight_W3 m ρ c)))
    (product2_W7 m ρ c)
    ((W7_W4 m ρ c main_arg6 (by decide) (by decide) (by decide)).trans (launch_W4 m ρ c main_arg6 (by decide) (by decide) (by decide) (by decide)))

theorem layer2_W9 :
    W9 m ρ c (Proc.devRef .tc main_v65)
      = val_main_v65 (F := Ideal) (A m c main_arg0) (A m c main_arg1) (A m c main_arg3) (A m c main_arg4) (A m c main_arg5)
          (A m c main_arg6) :=
  layer2_relu (W8 m ρ c) _ _ _ _ _ _ (layer2sum_W8 m ρ c)

/-- From the second region's exit to just before the graph words are laid out, through the second layer's glue. -/
theorem W9_W7 (r : Ref sig .tc) (h7 : r ∉ hostOps2_W) (h8 : r ∉ hostOps2_1_W) :
    W9 m ρ c (Proc.devRef .tc r) = W7 m ρ c (Proc.devRef .tc r) :=
  (W9_eq m ρ c r h8).trans (W8_eq m ρ c r h7)

/-- An argument no segment up to there touches, just before the graph words are laid out. -/
theorem launch_W9 (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : r ∉ hostOps1_1_W)
    (h6 : ∀ w, Pipeline.arrRef spec1 w ≠ r) (h7 : r ∉ hostOps2_W) (h8 : r ∉ hostOps2_1_W) :
    W9 m ρ c (Proc.devRef .tc r) = A m c r :=
  (W9_W7 m ρ c r h7 h8).trans ((W7_W4 m ρ c r h4 h5 h6).trans (launch_W4 m ρ c r h0 h1 h2 h3))

/-! ## Pooling -/

theorem layer2_W10 :
    W10 m ρ c (Proc.devRef .tc main_v65)
      = val_main_v65 (F := Ideal) (A m c main_arg0) (A m c main_arg1) (A m c main_arg3) (A m c main_arg4) (A m c main_arg5)
          (A m c main_arg6) :=
  (W10_eq m ρ c main_v65 (by decide)).trans (layer2_W9 m ρ c)

theorem words_W10 : W10 m ρ c (Proc.devRef .tc main_v66) = val_main_v67 (F := Ideal) (A m c main_arg2) :=
  word_column (W9 m ρ c) _ (launch_W9 m ρ c main_arg2 (by decide) (by decide) (by decide) (by decide) (by decide) (by decide) (by decide) (by decide) (by decide))

theorem pooled_W11 :
    W11 m ρ c (Proc.devRef .tc main_v67)
      = val_main_v68 (F := Ideal) (A m c main_arg0) (A m c main_arg1) (A m c main_arg2) (A m c main_arg3) (A m c main_arg4)
          (A m c main_arg5) (A m c main_arg6) :=
  (W11_arr m ρ c 2).trans ((region2_array (V10 m ρ) c).trans
    ((congrArg₂ (Cert.GraphSpec.pool (N := 100000) (C := 16) (G := 512)) (words_W10 m ρ c) (layer2_W10 m ρ c)).trans
      (scatter_pool _ _).symm))

/-- An argument no segment before the classifier touches, when the classifier's region is entered. -/
theorem launch_W11 (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : r ∉ hostOps1_1_W)
    (h6 : ∀ w, Pipeline.arrRef spec1 w ≠ r) (h7 : r ∉ hostOps2_W) (h8 : r ∉ hostOps2_1_W) (h9 : r ∉ hostOps2_2_W)
    (h10 : ∀ w, Pipeline.arrRef spec2 w ≠ r) : W11 m ρ c (Proc.devRef .tc r) = A m c r :=
  (W11_eq m ρ c r h10).trans ((W10_eq m ρ c r h9).trans (launch_W9 m ρ c r h0 h1 h2 h3 h4 h5 h6 h7 h8))

/-! ## The classifier, and the result -/

/-- THE RESULT BUFFER after the kernel program's run is the reference's last stage of the launch arguments. -/
theorem result_value :
    W12 m ρ c (Proc.devRef .tc main_v68)
      = val_main_v78 (F := Ideal) (A m c main_arg0) (A m c main_arg1) (A m c main_arg2) (A m c main_arg3) (A m c main_arg4)
          (A m c main_arg5) (A m c main_arg6) (A m c main_arg7) (A m c main_arg8) (A m c main_arg9) (A m c main_arg10) := by
  have hP : V11 m ρ c (Pipeline.arrRef spec3 0) = val_main_v68 (F := Ideal) (A m c main_arg0) (A m c main_arg1) (A m c main_arg2)
      (A m c main_arg3) (A m c main_arg4) (A m c main_arg5) (A m c main_arg6) := pooled_W11 m ρ c
  have h7 : V11 m ρ c (Pipeline.arrRef spec3 1) = A m c main_arg7 :=
    launch_W11 m ρ c main_arg7 (by decide) (by decide) (by decide) (by decide) (by decide) (by decide) (by decide) (by decide) (by decide) (by decide) (by decide)
  have h8 : V11 m ρ c (Pipeline.arrRef spec3 2) = A m c main_arg8 :=
    launch_W11 m ρ c main_arg8 (by decide) (by decide) (by decide) (by decide) (by decide) (by decide) (by decide) (by decide) (by decide) (by decide) (by decide)
  have h9 : V11 m ρ c (Pipeline.arrRef spec3 3) = A m c main_arg9 :=
    launch_W11 m ρ c main_arg9 (by decide) (by decide) (by decide) (by decide) (by decide) (by decide) (by decide) (by decide) (by decide) (by decide) (by decide)
  have h10 : V11 m ρ c (Pipeline.arrRef spec3 4) = A m c main_arg10 :=
    launch_W11 m ρ c main_arg10 (by decide) (by decide) (by decide) (by decide) (by decide) (by decide) (by decide) (by decide) (by decide) (by decide) (by decide)
  refine (W12_arr m ρ c 5).trans ((region3_array (V11 m ρ) c).trans ?_)
  rw [hP, h7, h8, h9, h10]
  exact (head_stages _ _ _ _ _).symm

end Cert.KernelIdeal.Bridge

end
-- ==== Proof.lean ====
/-
  The certificate of a two-layer graph convolution network with sum-pooling and a classifier head, against its plain
  reference, over the extended reals.

  Both programs build the same normalised adjacency from the edge list (self loops, degrees, the symmetric weights) and
  pass messages by the same gather, scale and scatter-add; they differ in four places. The kernel computes each layer's
  dense map `X ↦ X·W` in ten row blocks on the matrix unit from bf16-rounded operands, where the reference has one
  `dot_general`: over the extended reals the rounding is the identity and a block of rows of a product is the product of
  the block, so both are `linear`. The kernel pools node rows into graphs by multiplying with a 0/1 membership matrix,
  fifty node blocks accumulated into one resident block from a zero reset, where the reference scatter-adds rows by graph
  word: a zero factor annihilates and a one is neutral, sums of extended reals may be reordered, and a word that names no
  graph meets no column and lands on no row, so both are `pool`. And the kernel's classifier runs in one region what the
  reference runs as ten operations: both are `head`. No step needs the inputs finite.

  The three frames: the two kernel programs' are the generated frame certificates; the reference's is its run with the
  result dropped. The idealization rewrote nothing, so `preserves` asks nothing. `algebraic`: the kernel program's run
  names its result buffer at the last boundary's contents, the bridge reads those contents as the reference's last stage
  of the launch arguments, and the reference's run ends at that stage of arguments that agree.
-/
import proofs.«403746_j59158879535366_1_alg».proof.Defs
import proofs.«403746_j59158879535366_1_alg».proof.Proof.Gen.Kernel
import proofs.«403746_j59158879535366_1_alg».proof.Proof.Gen.Kernel.Frame
import proofs.«403746_j59158879535366_1_alg».proof.Proof.Gen.KernelIdeal
import proofs.«403746_j59158879535366_1_alg».proof.Proof.Gen.KernelIdeal.Frame
import proofs.«403746_j59158879535366_1_alg».proof.Proof.Gen.ReferenceIdeal
import proofs.«403746_j59158879535366_1_alg».proof.Proof.Gen.Pre_finite_inputs
import proofs.«403746_j59158879535366_1_alg».proof.Proof.KernelRun
import proofs.«403746_j59158879535366_1_alg».proof.Proof.RefRun
import proofs.«403746_j59158879535366_1_alg».proof.Proof.RefRead
import proofs.«403746_j59158879535366_1_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel (hKernel := Cert.Kernel.Gen.facts) (hPre_finite_inputs := Cert.Pre_finite_inputs.Gen.facts) :=
  fun m ρ _ => Cert.Kernel.Gen.frame m ρ

theorem frame_kernel_ideal :
    Cert.frame_KernelIdeal (hKernelIdeal := Cert.KernelIdeal.Gen.facts) (hPre_finite_inputs := Cert.Pre_finite_inputs.Gen.facts) :=
  fun m ρ _ => Cert.KernelIdeal.Gen.frame m ρ

/-- The reference's run with its result forgotten. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the reference's last stage of the (agreeing) launch arguments in their result buffers. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v68),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v78_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.KernelIdeal.Bridge.result_value m ρ c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, trivial, Claims.algebraic⟩

end Cert.Proof

end
